-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x64 : Shape := ⟨4, ![64, 256, 64, 64]⟩
abbrev S16x2 : Shape := ⟨2, ![16, 2]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S64x256x64x64 : S_.BroadcastsInDim S64x256x64x64 (![] : Fin 0 → Fin S64x256x64x64.rank)
  reducesTo_S64x256x64x64_S_d0_1_2_3 : S64x256x64x64.ReducesTo [0, 1, 2, 3] S_
  h_S_ : 0 < S_.numel
  bcast_S_S16x2 : S_.BroadcastsInDim S16x2 (![] : Fin 0 → Fin S16x2.rank)
  reducesTo_S16x2_S_d0_1 : S16x2.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x16 .f32) (main_arg8 : FVec F S1 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S16x2 .f32) (main_arg6 : FVec F S16 .f32) (main_arg7 : FVec F S1x16 .f32) (main_arg8 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S16x2 .f32 := Host.absf main_arg5
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S64x256x64x64 .f32) (main_arg1 : FVec F S16x2 .f32) (main_arg2 : FVec F S16 .f32) (main_arg3 : FVec F S1x16 .f32) (main_arg4 : FVec F S1 .f32) (main_arg5 : FVec F S16x2 .f32) (main_arg6 : FVec F S16 .f32) (main_arg7 : FVec F S1x16 .f32) (main_arg8 : FVec F S1 .f32) : IVec S_ 1 :=
  let main_v0 : FVec F S64x256x64x64 .f32 := Host.absf main_arg0
  let main_cst : FVec F S_ .f32 := constant S_ .f32 0x7F800000#32
  let main_v1 : FVec F S64x256x64x64 .f32 := broadcastInDim S64x256x64x64 ![] bcast_S_S64x256x64x64 main_cst
  let main_v2 : IVec S64x256x64x64 1 := cmpf .olt main_v0 main_v1
  let main_c : IVec S_ 1 := constantI S_ 1 1#1
  let main_v3 : IVec S_ 1 := (fun x v => Host.reduce IntOp.andi x v reducesTo_S64x256x64x64_S_d0_1_2_3 h_S_) main_v2 main_c
  let main_v4 : FVec F S16x2 .f32 := Host.absf main_arg1
  let main_cst_0 : FVec F S_ .f32 := constant S_ .f32 0x7F800000#32
  let main_v5 : FVec F S16x2 .f32 := broadcastInDim S16x2 ![] bcast_S_S16x2 main_cst_0
  let main_v6 : IVec S16x2 1 := cmpf .olt main_v4 main_v5
  let main_c_1 : IVec S_ 1 := constantI S_ 1 1#1
  let main_v7 : IVec S_ 1 := (fun x v => Host.reduce IntOp.andi x v reducesTo_S16x2_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_arg6 main_arg7 main_arg8 main_v13 main_v16
-- ==== Kernel.lean ====
abbrev S64x256x64x64 : Shape := ⟨4, ![64, 256, 64, 64]⟩
abbrev S16x2 : Shape := ⟨2, ![16, 2]⟩
abbrev S16 : Shape := ⟨1, ![16]⟩
abbrev S1x16 : Shape := ⟨2, ![1, 16]⟩
abbrev S1 : Shape := ⟨1, ![1]⟩
abbrev S1x256x64x64 : Shape := ⟨4, ![1, 256, 64, 64]⟩
abbrev S1x256x64 : Shape := ⟨3, ![1, 256, 64]⟩
abbrev S1x256x64x1 : Shape := ⟨4, ![1, 256, 64, 1]⟩
abbrev S1x256x1 : Shape := ⟨3, ![1, 256, 1]⟩
abbrev S1x256x1x1 : Shape := ⟨4, ![1, 256, 1, 1]⟩
abbrev S1x256 : Shape := ⟨2, ![1, 256]⟩
abbrev S16x1 : Shape := ⟨2, ![16, 1]⟩
abbrev S1x1x16 : Shape := ⟨3, ![1, 1, 16]⟩
abbrev S1x256x16 : Shape := ⟨3, ![1, 256, 16]⟩

abbrev nBuf : Space → Nat
  | .hbm => 10
  | .vmem => 12
  | .smem => 0
  | _ => 0

abbrev bufTy : (tb : Table) → Fin (tcTables nBuf tb) → BufTy
  | .hbm, ⟨0, _⟩ => ⟨S64x256x64x64, .f32⟩
  | .hbm, ⟨1, _⟩ => ⟨S16x2, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S16x2, .f32⟩
  | .hbm, ⟨6, _⟩ => ⟨S16, .f32⟩
  | .hbm, ⟨7, _⟩ => ⟨S1x16, .f32⟩
  | .hbm, ⟨8, _⟩ => ⟨S1, .f32⟩
  | .hbm, ⟨9, _⟩ => ⟨S64x256x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S16x2, .f32⟩
  | .local _ .vmem, ⟨3, _⟩ => ⟨S16, .f32⟩
  | .local _ .vmem, ⟨4, _⟩ => ⟨S1x16, .f32⟩
  | .local _ .vmem, ⟨5, _⟩ => ⟨S1, .f32⟩
  | .local _ .vmem, ⟨6, _⟩ => ⟨S16x2, .f32⟩
  | .local _ .vmem, ⟨7, _⟩ => ⟨S16, .f32⟩
  | .local _ .vmem, ⟨8, _⟩ => ⟨S1x16, .f32⟩
  | .local _ .vmem, ⟨9, _⟩ => ⟨S1, .f32⟩
  | .local _ .vmem, ⟨10, _⟩ => ⟨S1x256x64x64, .f32⟩
  | .local _ .vmem, ⟨11, _⟩ => ⟨S1x256x64x64, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1x256x64x64_S1x256x64x64_0_0_0_0 : ∀ a, (![0, 0, 0, 0] : Fin 4 → Nat) a + S1x256x64x64.size a ≤ S1x256x64x64.size a
  h_S1x256x64x64 : 0 < S1x256x64x64.numel
  reduces_S1x256x64x64_S1x256x64 : S1x256x64x64.Reduces [3] S1x256x64
  shapeCasts_S1x256x64_S1x256x64x1 : S1x256x64.ShapeCasts S1x256x64x1
  reduces_S1x256x64x1_S1x256x1 : S1x256x64x1.Reduces [2] S1x256x1
  shapeCasts_S1x256x1_S1x256x1x1 : S1x256x1.ShapeCasts S1x256x1x1
  shapeCasts_S1x256x1x1_S1x256 : S1x256x1x1.ShapeCasts S1x256
  inb_S16x2_S16x2_0_0 : ∀ a, (![0, 0] : Fin 2 → Nat) a + S16x2.size a ≤ S16x2.size a
  h_S16x2 : 0 < S16x2.numel
  inb_S16_S16_0 : ∀ a, (![0] : Fin 1 → Nat) a + S16.size a ≤ S16.size a
  h_S16 : 0 < S16.numel
  inb_S1x16_S1x16_0_0 : ∀ a, (![0, 0] : Fin 2 → Nat) a + S1x16.size a ≤ S1x16.size a
  h_S1x16 : 0 < S1x16.numel
  inb_S1_S1_0 : ∀ a, (![0] : Fin 1 → Nat) a + S1.size a ≤ S1.size a
  h_S1 : 0 < S1.numel
  slices_S16x2_o0_0_S16x1 : S16x2.Slices ![0, 0] S16x1
  shapeCasts_S16x1_S16 : S16x1.ShapeCasts S16
  slices_S16x2_o0_1_S16x1 : S16x2.Slices ![0, 1] S16x1
  shapeCasts_S1x256_S1x256x1 : S1x256.ShapeCasts S1x256x1
  shapeCasts_S16_S1x1x16 : S16.ShapeCasts S1x1x16
  broadcasts_S1x256x1_S1x256x16 : S1x256x1.Broadcasts S1x256x16
  broadcasts_S1x1x16_S1x256x16 : S1x1x16.Broadcasts S1x256x16
  shapeCasts_S1x16_S16 : S1x16.ShapeCasts S16
  reduces_S1x256x16_S1x256 : S1x256x16.Reduces [2] S1x256
  inpos_S1_p0 : ∀ a, (![0] : Fin 1 → Nat) a < S1.size a
  shapeCasts_S1x256_S1x256x1x1 : S1x256.ShapeCasts S1x256x1x1
  broadcasts_S1x256x1x1_S1x256x64x64 : S1x256x1x1.Broadcasts S1x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S64x256x64x64.size a
  hwx0_0 : ∀ i : grid0.Coords, EltTy.bits .f32 = 32 ∨ (Rect.block (s := S64x256x64x64) S1x256x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S16x2.size a
  hwx0_1 : ∀ i : grid0.Coords, EltTy.bits .f32 = 32 ∨ (Rect.block (s := S16x2) S16x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x2.size a ≤ S16x2.size a
  hwx0_5 : ∀ i : grid0.Coords, EltTy.bits .f32 = 32 ∨ (Rect.block (s := S16x2) S16x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x64x64.size a ≤ S64x256x64x64.size a
  hwx0_9 : ∀ i : grid0.Coords, EltTy.bits .f32 = 32 ∨ (Rect.block (s := S64x256x64x64) S1x256x64x64.size (cc0_transform_9 i) (hinb0_9 i)).WholeWords (EltTy.packing .f32)

variable [Facts₀]

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x256x64x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x256x64x64 : Shape := ⟨4, ![64, 256, 64, 64]⟩
abbrev S16x2 : Shape := ⟨2, ![16, 2]⟩
abbrev S16 : Shape := ⟨1, ![16]⟩
abbrev S1x16 : Shape := ⟨2, ![1, 16]⟩
abbrev S1 : Shape := ⟨1, ![1]⟩
abbrev S_ : Shape := ⟨0, ![]⟩
abbrev S64x256 : Shape := ⟨2, ![64, 256]⟩
abbrev S64x256x1x1 : Shape := ⟨4, ![64, 256, 1, 1]⟩
abbrev S64x256x1 : Shape := ⟨3, ![64, 256, 1]⟩
abbrev S64x256x2 : Shape := ⟨3, ![64, 256, 2]⟩
abbrev S64x256x16 : Shape := ⟨3, ![64, 256, 16]⟩
abbrev S1x1x16 : Shape := ⟨3, ![1, 1, 16]⟩
abbrev S1x1x1 : Shape := ⟨3, ![1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S64x256x64x64, .f32⟩
  | .hbm, ⟨1, _⟩ => ⟨S16x2, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S16x2, .f32⟩
  | .hbm, ⟨6, _⟩ => ⟨S16, .f32⟩
  | .hbm, ⟨7, _⟩ => ⟨S1x16, .f32⟩
  | .hbm, ⟨8, _⟩ => ⟨S1, .f32⟩
  | .hbm, ⟨9, _⟩ => ⟨S_, .f32⟩
  | .hbm, ⟨10, _⟩ => ⟨S64x256, .f32⟩
  | .hbm, ⟨11, _⟩ => ⟨S_, .f32⟩
  | .hbm, ⟨12, _⟩ => ⟨S64x256, .f32⟩
  | .hbm, ⟨13, _⟩ => ⟨S64x256, .f32⟩
  | .hbm, ⟨14, _⟩ => ⟨S_, .i32⟩
  | .hbm, ⟨15, _⟩ => ⟨S_, .f32⟩
  | .hbm, ⟨16, _⟩ => ⟨S64x256, .f32⟩
  | .hbm, ⟨17, _⟩ => ⟨S64x256x1x1, .f32⟩
  | .hbm, ⟨18, _⟩ => ⟨S_, .f32⟩
  | .hbm, ⟨19, _⟩ => ⟨S64x256x1x1, .f32⟩
  | .hbm, ⟨20, _⟩ => ⟨S64x256x1x1, .f32⟩
  | .hbm, ⟨21, _⟩ => ⟨S64x256x64x64, .f32⟩
  | .hbm, ⟨22, _⟩ => ⟨S64x256x64x64, .f32⟩
  | .hbm, ⟨23, _⟩ => ⟨S64x256x64x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64x256, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S64x256, .f32⟩
  | .hbm, ⟨36, _⟩ => ⟨S64x256, .f32⟩
  | .hbm, ⟨37, _⟩ => ⟨S_, .f32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S64x256x1, .f32⟩
  | .hbm, ⟨42, _⟩ => ⟨S64x256x1, .f32⟩
  | .hbm, ⟨43, _⟩ => ⟨S64x256x2, .f32⟩
  | .hbm, ⟨44, _⟩ => ⟨S64x256x16, .f32⟩
  | .hbm, ⟨45, _⟩ => ⟨S1x1x16, .f32⟩
  | .hbm, ⟨46, _⟩ => ⟨S64x256x16, .f32⟩
  | .hbm, ⟨47, _⟩ => ⟨S64x256x16, .f32⟩
  | .hbm, ⟨48, _⟩ => ⟨S_, .f32⟩
  | .hbm, ⟨49, _⟩ => ⟨S64x256x16, .f32⟩
  | .hbm, ⟨50, _⟩ => ⟨S64x256x16, .f32⟩
  | .hbm, ⟨51, _⟩ => ⟨S64x256x1, .f32⟩
  | .hbm, ⟨52, _⟩ => ⟨S1x1x1, .f32⟩
  | .hbm, ⟨53, _⟩ => ⟨S64x256x1, .f32⟩
  | .hbm, ⟨54, _⟩ => ⟨S64x256x1, .f32⟩
  | .hbm, ⟨55, _⟩ => ⟨S64x256x1, .f32⟩
  | .hbm, ⟨56, _⟩ => ⟨S64x256x1, .f32⟩
  | .hbm, ⟨57, _⟩ => ⟨S_, .f32⟩
  | .hbm, ⟨58, _⟩ => ⟨S64x256x1, .f32⟩
  | .hbm, ⟨59, _⟩ => ⟨S64x256x1, .f32⟩
  | .hbm, ⟨60, _⟩ => ⟨S_, .f32⟩
  | .hbm, ⟨61, _⟩ => ⟨S64x256x1, .f32⟩
  | .hbm, ⟨62, _⟩ => ⟨S64x256x1, .f32⟩
  | .hbm, ⟨63, _⟩ => ⟨S64x256, .f32⟩
  | .hbm, ⟨64, _⟩ => ⟨S64x256x16, .f32⟩
  | .hbm, ⟨65, _⟩ => ⟨S1x1x16, .f32⟩
  | .hbm, ⟨66, _⟩ => ⟨S64x256x16, .f32⟩
  | .hbm, ⟨67, _⟩ => ⟨S64x256x16, .f32⟩
  | .hbm, ⟨68, _⟩ => ⟨S_, .f32⟩
  | .hbm, ⟨69, _⟩ => ⟨S64x256x16, .f32⟩
  | .hbm, ⟨70, _⟩ => ⟨S64x256x16, .f32⟩
  | .hbm, ⟨71, _⟩ => ⟨S64x256x1, .f32⟩
  | .hbm, ⟨72, _⟩ => ⟨S1x1x1, .f32⟩
  | .hbm, ⟨73, _⟩ => ⟨S64x256x1, .f32⟩
  | .hbm, ⟨74, _⟩ => ⟨S64x256x1, .f32⟩
  | .hbm, ⟨75, _⟩ => ⟨S64x256x1, .f32⟩
  | .hbm, ⟨76, _⟩ => ⟨S64x256x1, .f32⟩
  | .hbm, ⟨77, _⟩ => ⟨S_, .f32⟩
  | .hbm, ⟨78, _⟩ => ⟨S64x256x1, .f32⟩
  | .hbm, ⟨79, _⟩ => ⟨S64x256x1, .f32⟩
  | .hbm, ⟨80, _⟩ => ⟨S_, .f32⟩
  | .hbm, ⟨81, _⟩ => ⟨S64x256x1, .f32⟩
  | .hbm, ⟨82, _⟩ => ⟨S64x256x1, .f32⟩
  | .hbm, ⟨83, _⟩ => ⟨S64x256, .f32⟩
  | .hbm, ⟨84, _⟩ => ⟨S64x256x1x1, .f32⟩
  | .hbm, ⟨85, _⟩ => ⟨S64x256x1x1, .f32⟩
  | .hbm, ⟨86, _⟩ => ⟨S64x256x64x64, .f32⟩
  | .hbm, ⟨87, _⟩ => ⟨S64x256x64x64, .f32⟩
  | .hbm, ⟨88, _⟩ => ⟨S64x256x64x64, .f32⟩
  | .hbm, ⟨89, _⟩ => ⟨S64x256x64x64, .f32⟩
  | .hbm, ⟨90, _⟩ => ⟨S64x256x1x1, .f32⟩
  | .hbm, ⟨91, _⟩ => ⟨S64x256x1x1, .f32⟩
  | .hbm, ⟨92, _⟩ => ⟨S64x256x64x64, .f32⟩
  | .hbm, ⟨93, _⟩ => ⟨S64x256x64x64, .f32⟩
  | .hbm, ⟨94, _⟩ => ⟨S64x256x1x1, .f32⟩
  | .hbm, ⟨95, _⟩ => ⟨S64x256x1x1, .f32⟩
  | .hbm, ⟨96, _⟩ => ⟨S64x256x64x64, .f32⟩
  | .hbm, ⟨97, _⟩ => ⟨S64x256x64x64, .f32⟩
  | _, _ => ⟨S64x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v3 : Ref sig .tc := ⟨.hbm, 36, rfl⟩
abbrev main_cst_1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call1_cst : Ref sig .tc := ⟨.hbm, 48, rfl⟩
abbrev main_call1_v0 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_v22 : Ref sig .tc := ⟨.hbm, 59, rfl⟩
abbrev main_cst_3 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_call2_cst : Ref sig .tc := ⟨.hbm, 68, rfl⟩
abbrev main_call2_v0 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩

abbrev nD : Nat := 1
abbrev τ : Topo := Topo.v7x

variable {F : FTy → Type} [FloatOps F]

class Facts₀ : Prop where
  reducesTo_S64x256x64x64_S64x256_d2_3 : S64x256x64x64.ReducesTo [2, 3] S64x256
  h_S_ : 0 < S_.numel
  bcast_S_S64x256 : S_.BroadcastsInDim S64x256 (![] : Fin 0 → Fin S64x256.rank)
  bcast_S64x256_S64x256x1x1_0_1 : S64x256.BroadcastsInDim S64x256x1x1 (![0, 1] : Fin 2 → Fin S64x256x1x1.rank)
  bcast_S_S64x256x1x1 : S_.BroadcastsInDim S64x256x1x1 (![] : Fin 0 → Fin S64x256x1x1.rank)
  bcast_S64x256x1x1_S64x256x64x64_0_1_2_3 : S64x256x1x1.BroadcastsInDim S64x256x64x64 (![0, 1, 2, 3] : Fin 4 → Fin S64x256x64x64.rank)
  bcast_S64x256_S64x256x1_0_1 : S64x256.BroadcastsInDim S64x256x1 (![0, 1] : Fin 2 → Fin S64x256x1.rank)
  concatenates_S64x256x1_S64x256x1_S64x256x2_d2 : Shape.Concatenates [S64x256x1, S64x256x1] S64x256x2 2
  bcast_S16_S1x1x16_2 : S16.BroadcastsInDim S1x1x16 (![2] : Fin 1 → Fin S1x1x16.rank)
  bcast_S1x1x16_S64x256x16_0_1_2 : S1x1x16.BroadcastsInDim S64x256x16 (![0, 1, 2] : Fin 3 → Fin S64x256x16.rank)
  bcast_S_S64x256x16 : S_.BroadcastsInDim S64x256x16 (![] : Fin 0 → Fin S64x256x16.rank)
  bcast_S1_S1x1x1_2 : S1.BroadcastsInDim S1x1x1 (![2] : Fin 1 → Fin S1x1x1.rank)
  bcast_S1x1x1_S64x256x1_0_1_2 : S1x1x1.BroadcastsInDim S64x256x1 (![0, 1, 2] : Fin 3 → Fin S64x256x1.rank)
  bcast_S_S64x256x1 : S_.BroadcastsInDim S64x256x1 (![] : Fin 0 → Fin S64x256x1.rank)
  shapeCasts_S64x256x1_S64x256 : S64x256x1.ShapeCasts S64x256
  dot_S64x256x2_S16x2_S64x256x16_2_1_01_0_n_n_wf : DotDims.WF S64x256x2 S16x2 S64x256x16 [2] [1] [0, 1] [0] [] []
  dot_S64x256x16_S1x16_S64x256x1_2_1_01_0_n_n_wf : DotDims.WF S64x256x16 S1x16 S64x256x1 [2] [1] [0, 1] [0] [] []

variable [Facts₀]

def dot_S64x256x2_S16x2_S64x256x16_2_1_01_0_n_n : DotDims S64x256x2 S16x2 S64x256x16 where
  lhsContracting := [2]
  rhsContracting := [1]
  lhsNonContracting := [0, 1]
  rhsNonContracting := [0]
  lhsBatch := []
  rhsBatch := []
  wf := dot_S64x256x2_S16x2_S64x256x16_2_1_01_0_n_n_wf
def dot_S64x256x16_S1x16_S64x256x1_2_1_01_0_n_n : DotDims S64x256x16 S1x16 S64x256x1 where
  lhsContracting := [2]
  rhsContracting := [1]
  lhsNonContracting := [0, 1]
  rhsNonContracting := [0]
  lhsBatch := []
  rhsBatch := []
  wf := dot_S64x256x16_S1x16_S64x256x1_2_1_01_0_n_n_wf

class Facts : Prop extends Facts₀ where

variable [Facts]
-- ==== Proof.Spec.lean ====
/-
  The function both programs compute, written once over plain index sets.

  For an array `x` of shape [n, 256, 64, 64] and a pair (b, c), `chanSum x b c` is the sum of the 4096 entries
  of channel (b, c), `chanMean` that sum over 4096, and the channel's deviation is taken in two ways: `chanStd`
  from the raw second moment, sqrt((Σ x² − 4096·mean·mean) / 4095 + ε), and `chanStdC` from the centred squares,
  sqrt(Σ (x − mean)² / (4096 − 1) + ε). A gate is a two-layer perceptron on the pair (mean, deviation):
  logistic(Σ_k max(mean·w1[k,0] + dev·w1[k,1] + b1[k], 0)·w2[0,k] + b2[0]).
  `out` is (x − mean)·gate_s + mean·gate_m with the raw-moment deviation; `outC` is
  ((x − mean) / dev)·(dev·gate_s) + mean·gate_m with the centred one. `Laws.lean` proves the two equal when every
  entry of `x` is a real number. The float literals stay as their bit patterns; the few whose value matters are
  evaluated here once.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- 4096.0, 4095.0, 1e-5 (as f32), 1.0 and 0.0 as the extended reals their patterns denote. -/
abbrev c4096 : EReal := Ideal.ofBits .f32 0x45800000#32
abbrev c4095 : EReal := Ideal.ofBits .f32 0x457FF000#32
abbrev cEps : EReal := Ideal.ofBits .f32 0x3727C5AC#32
abbrev cOne : EReal := Ideal.ofBits .f32 0x3F800000#32
abbrev cZero : EReal := Ideal.ofBits .f32 0x00000000#32

theorem c4096_eq : c4096 = ((4096 : ℝ) : EReal) := by
  simp [c4096, Ideal.ofBits, Ideal.ieee, -EReal.coe_mul]; norm_num

theorem c4095_eq : c4095 = ((4095 : ℝ) : EReal) := by
  simp [c4095, Ideal.ofBits, Ideal.ieee, -EReal.coe_mul]; norm_num

theorem cOne_eq : cOne = 1 := by
  simp [cOne, Ideal.ofBits, Ideal.ieee, -EReal.coe_mul]; norm_num

theorem cZero_eq : cZero = 0 := Ideal.ofBits_zero_f32

/-- The ε of both programs is a positive real. -/
theorem cEps_pos : ∃ e : ℝ, 0 < e ∧ cEps = (e : EReal) := by
  refine ⟨_, ?_, by simp [cEps, Ideal.ofBits, Ideal.ieee, -EReal.coe_mul]; rfl⟩
  norm_num

variable {n : Nat}

/-- The sum of channel (b, c): over its 64 rows, and in each over its 64 columns. -/
def chanSum (x : (⟨4, ![n, 256, 64, 64]⟩ : Shape).Idx → EReal) (b : Fin n) (c : Fin 256) : EReal :=
  ∑ h : Fin 64, ∑ w : Fin 64, x (ix4 b c h w)

/-- The channel's mean: its sum over 4096. -/
def chanMean (x : (⟨4, ![n, 256, 64, 64]⟩ : Shape).Idx → EReal) (b : Fin n) (c : Fin 256) : EReal :=
  Ideal.div (chanSum x b c) c4096

/-- The channel's deviation from the raw second moment: sqrt((Σ x² − 4096·mean·mean) / 4095 + ε). -/
def chanStd (x : (⟨4, ![n, 256, 64, 64]⟩ : Shape).Idx → EReal) (b : Fin n) (c : Fin 256) : EReal :=
  Ideal.sqrt (Ideal.div (chanSum (fun i => x i * x i) b c - c4096 * chanMean x b c * chanMean x b c) c4095 + cEps)

/-- The channel's deviation from the centred squares: sqrt(Σ (x − mean)² / (4096 − 1) + ε). -/
def chanStdC (x : (⟨4, ![n, 256, 64, 64]⟩ : Shape).Idx → EReal) (b : Fin n) (c : Fin 256) : EReal :=
  Ideal.sqrt (Ideal.div (chanSum (fun i => (x i - chanMean x (i 0) (i 1)) * (x i - chanMean x (i 0) (i 1))) b c)
    (c4096 - ((((1 : ℤ) : ℝ)) : EReal)) + cEps)

/-- A gate: the two-layer perceptron on (mean, deviation), 2 → 16 → 1, relu inside and logistic outside. -/
def gate (w1 : (⟨2, ![16, 2]⟩ : Shape).Idx → EReal) (b1 : (⟨1, ![16]⟩ : Shape).Idx → EReal)
    (w2 : (⟨2, ![1, 16]⟩ : Shape).Idx → EReal) (b2 : (⟨1, ![1]⟩ : Shape).Idx → EReal) (mu sd : EReal) : EReal :=
  Ideal.logistic ((∑ k : Fin 16, max (mu * w1 (ix2 k 0) + sd * w1 (ix2 k 1) + b1 (ix1 k)) 0 * w2 (ix2 0 k)) + b2 (ix1 0))

/-- The kernel's arrangement: (x − mean)·gate_s + mean·gate_m, the deviation from the raw second moment. -/
def out (x : (⟨4, ![n, 256, 64, 64]⟩ : Shape).Idx → EReal)
    (wm1 : (⟨2, ![16, 2]⟩ : Shape).Idx → EReal) (bm1 : (⟨1, ![16]⟩ : Shape).Idx → EReal)
    (wm2 : (⟨2, ![1, 16]⟩ : Shape).Idx → EReal) (bm2 : (⟨1, ![1]⟩ : Shape).Idx → EReal)
    (ws1 : (⟨2, ![16, 2]⟩ : Shape).Idx → EReal) (bs1 : (⟨1, ![16]⟩ : Shape).Idx → EReal)
    (ws2 : (⟨2, ![1, 16]⟩ : Shape).Idx → EReal) (bs2 : (⟨1, ![1]⟩ : Shape).Idx → EReal) :
    (⟨4, ![n, 256, 64, 64]⟩ : Shape).Idx → EReal := fun i =>
  (x i - chanMean x (i 0) (i 1)) * gate ws1 bs1 ws2 bs2 (chanMean x (i 0) (i 1)) (chanStd x (i 0) (i 1))
    + chanMean x (i 0) (i 1) * gate wm1 bm1 wm2 bm2 (chanMean x (i 0) (i 1)) (chanStd x (i 0) (i 1))

/-- The reference's arrangement: ((x − mean) / dev)·(dev·gate_s) + mean·gate_m, the deviation from the centred
    squares. -/
def outC (x : (⟨4, ![n, 256, 64, 64]⟩ : Shape).Idx → EReal)
    (wm1 : (⟨2, ![16, 2]⟩ : Shape).Idx → EReal) (bm1 : (⟨1, ![16]⟩ : Shape).Idx → EReal)
    (wm2 : (⟨2, ![1, 16]⟩ : Shape).Idx → EReal) (bm2 : (⟨1, ![1]⟩ : Shape).Idx → EReal)
    (ws1 : (⟨2, ![16, 2]⟩ : Shape).Idx → EReal) (bs1 : (⟨1, ![16]⟩ : Shape).Idx → EReal)
    (ws2 : (⟨2, ![1, 16]⟩ : Shape).Idx → EReal) (bs2 : (⟨1, ![1]⟩ : Shape).Idx → EReal) :
    (⟨4, ![n, 256, 64, 64]⟩ : Shape).Idx → EReal := fun i =>
  Ideal.div (x i - chanMean x (i 0) (i 1)) (chanStdC x (i 0) (i 1))
      * (chanStdC x (i 0) (i 1) * gate ws1 bs1 ws2 bs2 (chanMean x (i 0) (i 1)) (chanStdC x (i 0) (i 1)))
    + chanMean x (i 0) (i 1) * gate wm1 bm1 wm2 bm2 (chanMean x (i 0) (i 1)) (chanStdC x (i 0) (i 1))

end Cert.Spec

end
-- ==== Proof.KernelStats.lean ====
/-
  The kernel body's channel statistics read at a channel.

  A block has shape [1, 256, 64, 64]. The body sums it over the columns, then over the rows (two lane sums with a
  unit axis put back between them), so at channel c the result is Σ_h Σ_w of the block's entries; the mean is that
  sum over 4096; the deviation is sqrt((Σ x² − 4096·mean·mean) / 4095 + ε), the sum of squares taken the same way.
  These are the specification's channel sum, mean and deviation of the block, whatever unit axes they sit on.
-/
import proofs.«130779_j46196668236411_1_alg».proof.Proof.Gen.KernelIdeal.Skeleton
import proofs.«130779_j46196668236411_1_alg».proof.Proof.Spec
import Idealize.ShloMosaic.Lib.Pipeline.Value

noncomputable section

open scoped BigOperators

namespace Cert.KernelStats

open Cert.KernelIdeal Cert.KernelIdeal.Gen Idealize.ShloMosaic Idealize.ShloMosaic.ValueIdx

/-- The index over (0, c, h) of the lane-summed block with column w inserted on the last axis is (0, c, h, w). -/
theorem lift3_eq (c : Fin 256) (h w : Fin 64) :
    reduces_S1x256x64x64_S1x256x64.lift (ix3 (0 : Fin 1) c h) w = ix4 (0 : Fin 1) c h w :=
  funext fun a => Fin.ext (match a with | ⟨0, _⟩ => rfl | ⟨1, _⟩ => rfl | ⟨2, _⟩ => rfl | ⟨3, _⟩ => rfl)

/-- The two-stage sum of ANY block X of shape [1, 256, 64, 64] — over its columns, then, after the unit axis is
    put back, over its rows — read at channel c is the double sum Σ_h Σ_w X(0, c, h, w). -/
theorem twoStage_apply (X : FVec Ideal S1x256x64x64 .f32) (c : Fin 256) :
    (multiReduction .add [2] S1x256x1 (shapeCast S1x256x64x1 (multiReduction .add [3] S1x256x64 X 0x00000000#32
        reduces_S1x256x64x64_S1x256x64 (.inl rfl) rfl) shapeCasts_S1x256x64_S1x256x64x1) 0x00000000#32
        reduces_S1x256x64x1_S1x256x1 (.inl rfl) rfl : FVec Ideal S1x256x1 .f32) (ix3 (0 : Fin 1) c (0 : Fin 1))
      = ∑ h : Fin 64, ∑ w : Fin 64, X (ix4 (0 : Fin 1) c h w) := by
  refine (Ideal.multiReduction_add_single _ _ reduces_S1x256x64x1_S1x256x1 _ _ (ix3 (0 : Fin 1) c (0 : Fin 1))).trans ?_
  refine Finset.sum_congr rfl fun h _ => ?_
  -- the cast [1,256,64] → [1,256,64,1] keeps the row-major position: (0, c, h, 0) reads (0, c, h)
  refine (shapeCast_apply _ shapeCasts_S1x256x64_S1x256x64x1 _ (ix3 (0 : Fin 1) c h) ?_).trans ?_
  · rw [Shape.rowMajor_val_three, Shape.rowMajor_val_four]
    show ((0 * 256 + c.val) * 64 + h.val) = (((0 * 256 + c.val) * 64 + h.val) * 1 + 0)
    omega
  refine (Ideal.multiReduction_add_single X _ reduces_S1x256x64x64_S1x256x64 _ _ (ix3 (0 : Fin 1) c h)).trans ?_
  exact Finset.sum_congr rfl fun w _ => congrArg X (lift3_eq c h w)

/-- The cast [1, 256, 1] → [1, 256, 1, 1] keeps the row-major position: (0, c, 0, 0) reads (0, c, 0). -/
theorem cast31_apply (v : FVec Ideal S1x256x1 .f32) (c : Fin 256) :
    shapeCast S1x256x1x1 v shapeCasts_S1x256x1_S1x256x1x1 (ix4 (0 : Fin 1) c (0 : Fin 1) (0 : Fin 1))
      = v (ix3 (0 : Fin 1) c (0 : Fin 1)) :=
  shapeCast_apply v shapeCasts_S1x256x1_S1x256x1x1 _ _ (by
    rw [Shape.rowMajor_val_three, Shape.rowMajor_val_four]
    show ((0 * 256 + c.val) * 1 + 0) = (((0 * 256 + c.val) * 1 + 0) * 1 + 0)
    omega)

/-- The cast [1, 256, 1, 1] → [1, 256] keeps the row-major position: (0, c) reads (0, c, 0, 0). -/
theorem cast42_apply (v : FVec Ideal S1x256x1x1 .f32) (c : Fin 256) :
    shapeCast S1x256 v shapeCasts_S1x256x1x1_S1x256 (ix2 (0 : Fin 1) c)
      = v (ix4 (0 : Fin 1) c (0 : Fin 1) (0 : Fin 1)) :=
  shapeCast_apply v shapeCasts_S1x256x1x1_S1x256 _ _ (by
    rw [Shape.rowMajor_val_four, Shape.rowMajor_val_two]
    show (((0 * 256 + c.val) * 1 + 0) * 1 + 0) = (0 * 256 + c.val)
    omega)

theorem blockSum_apply (P0 : Vec Ideal S1x256x64x64 .f32) (c : Fin 256) :
    (multiReduction .add [2] S1x256x1 (shapeCast S1x256x64x1 (multiReduction .add [3] S1x256x64 P0 0x00000000#32
        reduces_S1x256x64x64_S1x256x64 (.inl rfl) rfl) shapeCasts_S1x256x64_S1x256x64x1) 0x00000000#32
        reduces_S1x256x64x1_S1x256x1 (.inl rfl) rfl : FVec Ideal S1x256x1 .f32) (ix3 (0 : Fin 1) c (0 : Fin 1))
      = Cert.Spec.chanSum (n := 1) P0 0 c :=
  twoStage_apply P0 c

theorem pay2_apply (P0 : Vec Ideal S1x256x64x64 .f32) (c : Fin 256) :
    k0_pay2 (F := Ideal) P0 (ix4 (0 : Fin 1) c (0 : Fin 1) (0 : Fin 1)) = Cert.Spec.chanMean (n := 1) P0 0 c := by
  unfold k0_pay2
  -- the quotient at (0, c, 0, 0): the two-stage sum, moved to [1,256,1,1], over the splat 4096
  show Ideal.div (shapeCast S1x256x1x1 (multiReduction .add [2] S1x256x1 (shapeCast S1x256x64x1
      (multiReduction .add [3] S1x256x64 P0 0x00000000#32 reduces_S1x256x64x64_S1x256x64 (.inl rfl) rfl)
      shapeCasts_S1x256x64_S1x256x64x1) 0x00000000#32 reduces_S1x256x64x1_S1x256x1 (.inl rfl) rfl : FVec Ideal S1x256x1 .f32)
      shapeCasts_S1x256x1_S1x256x1x1 (ix4 (0 : Fin 1) c (0 : Fin 1) (0 : Fin 1))) Cert.Spec.c4096
    = Ideal.div (Cert.Spec.chanSum (n := 1) P0 0 c) Cert.Spec.c4096
  refine congrArg (fun z => Ideal.div z Cert.Spec.c4096) ?_
  refine (cast31_apply _ c).trans ?_
  exact blockSum_apply P0 c

theorem pay3_apply (P0 : Vec Ideal S1x256x64x64 .f32) (c : Fin 256) :
    k0_pay3 (F := Ideal) P0 (ix2 (0 : Fin 1) c) = Cert.Spec.chanMean (n := 1) P0 0 c := by
  unfold k0_pay3
  exact (cast42_apply _ c).trans (pay2_apply P0 c)

theorem pay4_apply (P0 : Vec Ideal S1x256x64x64 .f32) (c : Fin 256) :
    k0_pay4 (F := Ideal) P0 (ix2 (0 : Fin 1) c) = Cert.Spec.chanStd (n := 1) P0 0 c := by
  unfold k0_pay4
  refine (cast42_apply _ c).trans ?_
  -- at (0, c, 0, 0) every pointwise operation acts on the entries there; what is left is the second moment
  -- and the two occurrences of the mean
  show Ideal.sqrt (Ideal.div
      (shapeCast S1x256x1x1 (multiReduction .add [2] S1x256x1 (shapeCast S1x256x64x1
          (multiReduction .add [3] S1x256x64 (mulf P0 P0) 0x00000000#32 reduces_S1x256x64x64_S1x256x64 (.inl rfl) rfl)
          shapeCasts_S1x256x64_S1x256x64x1) 0x00000000#32 reduces_S1x256x64x1_S1x256x1 (.inl rfl) rfl : FVec Ideal S1x256x1 .f32)
          shapeCasts_S1x256x1_S1x256x1x1 (ix4 (0 : Fin 1) c (0 : Fin 1) (0 : Fin 1))
        - Cert.Spec.c4096 * k0_pay2 (F := Ideal) P0 (ix4 (0 : Fin 1) c (0 : Fin 1) (0 : Fin 1))
            * k0_pay2 (F := Ideal) P0 (ix4 (0 : Fin 1) c (0 : Fin 1) (0 : Fin 1)))
      Cert.Spec.c4095 + Cert.Spec.cEps)
    = Ideal.sqrt (Ideal.div (Cert.Spec.chanSum (n := 1) (fun i => P0 i * P0 i) 0 c
        - Cert.Spec.c4096 * Cert.Spec.chanMean (n := 1) P0 0 c * Cert.Spec.chanMean (n := 1) P0 0 c)
      Cert.Spec.c4095 + Cert.Spec.cEps)
  rw [pay2_apply P0 c]
  refine congrArg (fun z => Ideal.sqrt (Ideal.div (z - Cert.Spec.c4096 * Cert.Spec.chanMean (n := 1) P0 0 c
    * Cert.Spec.chanMean (n := 1) P0 0 c) Cert.Spec.c4095 + Cert.Spec.cEps)) ?_
  refine (cast31_apply _ c).trans ?_
  exact twoStage_apply (mulf P0 P0) c

end Cert.KernelStats

end
-- ==== Proof.KernelGate.lean ====
/-
  The kernel body's two gates read at a channel.

  Each gate takes the channel's mean and deviation (arrays of shape [1, 256]) and a perceptron's weights: the first
  layer's two columns are sliced out of w1 and laid along a last axis of extent 16, the mean and the deviation are
  laid along the channel axis, so the hidden layer at (0, c, k) is max(mean(c)·w1(k,0) + dev(c)·w1(k,1) + b1(k), 0);
  it is multiplied by w2's row, summed over the 16 lanes, b2's one entry is added and the logistic applied. At
  channel c this is the specification's gate at (mean(c), dev(c)). The first gate receives the two first-layer
  products already formed; the second forms them itself: both are one function of the same pieces.
-/
import proofs.«130779_j46196668236411_1_alg».proof.Proof.Gen.KernelIdeal.Skeleton
import proofs.«130779_j46196668236411_1_alg».proof.Proof.Spec
import Idealize.ShloMosaic.Lib.Pipeline.Value

noncomputable section

open scoped BigOperators

namespace Cert.KernelGate

open Cert.KernelIdeal Cert.KernelIdeal.Gen Idealize.ShloMosaic Idealize.ShloMosaic.ValueIdx

/-! ## Layout steps read at explicit coordinates

Each lemma reads one re-indexing of the gate's body at an index written by its coordinates, for an arbitrary array of the
literal shape. -/

section Layout

variable {α : Type}

/-- Column `q` of a [16, 2] matrix, cut out as a [16, 1] block from offset `o = q`, reads at `(k, 0)` the matrix
    at `(k, q)`. -/
theorem col_apply (o : Nat) (X : (⟨2, ![16, 2]⟩ : Shape).Idx → α)
    (h : (⟨2, ![16, 2]⟩ : Shape).Slices ![0, o] ⟨2, ![16, 1]⟩) (k : Fin 16) (j : Fin 1) (q : Fin 2) (hq : q.val = o) :
    extractStridedSlice ⟨2, ![16, 1]⟩ ![0, o] X h (ix2 k j) = X (ix2 k q) :=
  extractStridedSlice_apply _ _ _ _ _ (fun ax => by
    match ax with
    | ⟨0, _⟩ => exact (Nat.zero_add _).symm
    | ⟨1, _⟩ =>
      have hj : j.val = 0 := by omega
      show q.val = o + j.val
      rw [hj, hq, Nat.add_zero])

/-- A [16, 1] column flattened to [16] reads at `k` the column at `(k, 0)`. -/
theorem cast_a1_a_apply (x : (⟨2, ![16, 1]⟩ : Shape).Idx → α) (h : (⟨2, ![16, 1]⟩ : Shape).ShapeCasts ⟨1, ![16]⟩)
    (k : Fin 16) : shapeCast ⟨1, ![16]⟩ x h (ix1 k) = x (ix2 k (0 : Fin 1)) :=
  shapeCast_apply x h _ _ (by
    rw [Shape.rowMajor_val_two, Shape.rowMajor_val_one]
    show k.val * 1 + 0 = k.val
    omega)

/-- A [16] vector given two leading unit axes reads at `(u, v, k)` the vector at `k`. -/
theorem cast_a_11a_apply (x : (⟨1, ![16]⟩ : Shape).Idx → α) (h : (⟨1, ![16]⟩ : Shape).ShapeCasts ⟨3, ![1, 1, 16]⟩)
    (u v : Fin 1) (k : Fin 16) : shapeCast ⟨3, ![1, 1, 16]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * 16 + k.val
    rw [hu, hv]; omega)

/-- A [1, 256] array given a trailing unit axis reads at `(u, c, v)` the array at `(u, c)`. -/
theorem cast_1b_1b1_apply (x : (⟨2, ![1, 256]⟩ : Shape).Idx → α)
    (h : (⟨2, ![1, 256]⟩ : Shape).ShapeCasts ⟨3, ![1, 256, 1]⟩) (u : Fin 1) (c : Fin 256) (v : Fin 1) :
    shapeCast ⟨3, ![1, 256, 1]⟩ x h (ix3 u c v) = x (ix2 u c) :=
  shapeCast_apply x h _ _ (by
    have hv : v.val = 0 := by omega
    rw [Shape.rowMajor_val_three, Shape.rowMajor_val_two]
    show u.val * 256 + c.val = (u.val * 256 + c.val) * 1 + v.val
    rw [hv]; omega)

/-- A [1, 256] array given two trailing unit axes reads at `(u, c, v, w)` the array at `(u, c)`. -/
theorem cast_1b_1b11_apply (x : (⟨2, ![1, 256]⟩ : Shape).Idx → α)
    (h : (⟨2, ![1, 256]⟩ : Shape).ShapeCasts ⟨4, ![1, 256, 1, 1]⟩) (u : Fin 1) (c : Fin 256) (v w : Fin 1) :
    shapeCast ⟨4, ![1, 256, 1, 1]⟩ x h (ix4 u c v w) = x (ix2 u c) :=
  shapeCast_apply x h _ _ (by
    have hv : v.val = 0 := by omega
    have hw : w.val = 0 := by omega
    rw [Shape.rowMajor_val_four, Shape.rowMajor_val_two]
    show u.val * 256 + c.val = ((u.val * 256 + c.val) * 1 + v.val) * 1 + w.val
    rw [hv, hw]; omega)

/-- A [1, 256, 1] column spread over 16 lanes reads at `(u, c, k)` the column at `(u, c, 0)`. -/
theorem bcast_1b1_1bk_apply (x : (⟨3, ![1, 256, 1]⟩ : Shape).Idx → α)
    (h : (⟨3, ![1, 256, 1]⟩ : Shape).Broadcasts ⟨3, ![1, 256, 16]⟩) (u : Fin 1) (c : Fin 256) (k : Fin 16) :
    broadcastTo ⟨3, ![1, 256, 16]⟩ x h (ix3 u c k) = x (ix3 u c (0 : Fin 1)) := by
  refine broadcastTo_apply x h (ix3 u c k) (ix3 u c (0 : Fin 1)) fun ax => ?_
  match ax with
  | ⟨0, _⟩ =>
    show u.val = if (1 : Nat) = 1 then 0 else u.val
    rw [if_pos rfl]; omega
  | ⟨1, _⟩ =>
    show c.val = if (256 : Nat) = 1 then 0 else c.val
    rw [if_neg (by decide)]
  | ⟨2, _⟩ => rfl

/-- A [1, 1, 16] row spread over 256 channels reads at `(u, c, k)` the row at `(0, 0, k)`. -/
theorem bcast_11k_1bk_apply (x : (⟨3, ![1, 1, 16]⟩ : Shape).Idx → α)
    (h : (⟨3, ![1, 1, 16]⟩ : Shape).Broadcasts ⟨3, ![1, 256, 16]⟩) (u : Fin 1) (c : Fin 256) (k : Fin 16) :
    broadcastTo ⟨3, ![1, 256, 16]⟩ x h (ix3 u c k) = x (ix3 (0 : Fin 1) (0 : Fin 1) k) := by
  refine broadcastTo_apply x h (ix3 u c k) (ix3 (0 : Fin 1) (0 : Fin 1) k) fun ax => ?_
  match ax with
  | ⟨0, _⟩ => rfl
  | ⟨1, _⟩ => rfl
  | ⟨2, _⟩ =>
    show k.val = if (16 : Nat) = 1 then 0 else k.val
    rw [if_neg (by decide)]

end Layout

section Composite

variable {α : Type}

/-- A [1, 16] row flattened to [16] reads at `k` the row at `(0, k)`. -/
theorem cast_1a_a_apply (x : (⟨2, ![1, 16]⟩ : Shape).Idx → α) (h : (⟨2, ![1, 16]⟩ : Shape).ShapeCasts ⟨1, ![16]⟩)
    (k : Fin 16) : shapeCast ⟨1, ![16]⟩ x h (ix1 k) = x (ix2 (0 : Fin 1) k) :=
  shapeCast_apply x h _ _ (by
    rw [Shape.rowMajor_val_two, Shape.rowMajor_val_one]
    show 0 * 16 + k.val = k.val
    omega)

/-- The one entry of a [1] vector, taken out at position 0. -/
theorem extract0_apply (x : (⟨1, ![1]⟩ : Shape).Idx → α)
    (h : ∀ a, (![0] : Fin 1 → Nat) a < (⟨1, ![1]⟩ : Shape).size a) :
    extractAt ![0] x h = x (ix1 (0 : Fin 1)) :=
  congrArg x (funext fun a => match a with | ⟨0, _⟩ => rfl)

/-- A [16] vector laid along the lanes of a [1, 256, 16] array reads at `(u, c, k)` the vector at `k`. -/
theorem lanes_apply (x : (⟨1, ![16]⟩ : Shape).Idx → α) (h1 : (⟨1, ![16]⟩ : Shape).ShapeCasts ⟨3, ![1, 1, 16]⟩)
    (h2 : (⟨3, ![1, 1, 16]⟩ : Shape).Broadcasts ⟨3, ![1, 256, 16]⟩) (u : Fin 1) (c : Fin 256) (k : Fin 16) :
    broadcastTo ⟨3, ![1, 256, 16]⟩ (shapeCast ⟨3, ![1, 1, 16]⟩ x h1) h2 (ix3 u c k) = x (ix1 k) :=
  (bcast_11k_1bk_apply _ h2 u c k).trans (cast_a_11a_apply x h1 _ _ k)

/-- A [1, 256] array laid along the channels of a [1, 256, 16] array reads at `(u, c, k)` the array at `(u, c)`. -/
theorem chans_apply (m : (⟨2, ![1, 256]⟩ : Shape).Idx → α) (h1 : (⟨2, ![1, 256]⟩ : Shape).ShapeCasts ⟨3, ![1, 256, 1]⟩)
    (h2 : (⟨3, ![1, 256, 1]⟩ : Shape).Broadcasts ⟨3, ![1, 256, 16]⟩) (u : Fin 1) (c : Fin 256) (k : Fin 16) :
    broadcastTo ⟨3, ![1, 256, 16]⟩ (shapeCast ⟨3, ![1, 256, 1]⟩ m h1) h2 (ix3 u c k) = m (ix2 u c) :=
  (bcast_1b1_1bk_apply _ h2 u c k).trans (cast_1b_1b1_apply m h1 u c _)

/-- Column `q` of a [16, 2] matrix laid along the lanes of a [1, 256, 16] array reads at `(u, c, k)` the matrix at
    `(k, q)`. -/
theorem colLanes_apply (o : Nat) (X : (⟨2, ![16, 2]⟩ : Shape).Idx → α)
    (hs : (⟨2, ![16, 2]⟩ : Shape).Slices ![0, o] ⟨2, ![16, 1]⟩) (h0 : (⟨2, ![16, 1]⟩ : Shape).ShapeCasts ⟨1, ![16]⟩)
    (h1 : (⟨1, ![16]⟩ : Shape).ShapeCasts ⟨3, ![1, 1, 16]⟩) (h2 : (⟨3, ![1, 1, 16]⟩ : Shape).Broadcasts ⟨3, ![1, 256, 16]⟩)
    (u : Fin 1) (c : Fin 256) (k : Fin 16) (q : Fin 2) (hq : q.val = o) :
    broadcastTo ⟨3, ![1, 256, 16]⟩
        (shapeCast ⟨3, ![1, 1, 16]⟩ (shapeCast ⟨1, ![16]⟩ (extractStridedSlice ⟨2, ![16, 1]⟩ ![0, o] X hs) h0) h1) h2 (ix3 u c k)
      = X (ix2 k q) :=
  (lanes_apply _ h1 h2 u c k).trans ((cast_a1_a_apply _ h0 k).trans (col_apply o X hs k _ q hq))

end Composite

/-- The sum over the 16 lanes of a [1, 256, 16] array of extended reals, at `(u, c)`. -/
theorem laneSum_apply (src : FVec Ideal (⟨3, ![1, 256, 16]⟩ : Shape) .f32)
    (h : (⟨3, ![1, 256, 16]⟩ : Shape).Reduces [2] ⟨2, ![1, 256]⟩) (hφ : FKind.Formats .f32)
    (hacc : (0x00000000#32 : BitVec 32) = FKind.add.neutral .f32 hφ) (u : Fin 1) (c : Fin 256) :
    multiReduction (F := Ideal) .add [2] ⟨2, ![1, 256]⟩ src 0x00000000#32 h hφ hacc (ix2 u c)
      = ∑ k : Fin 16, src (ix3 u c k) := by
  refine (Ideal.multiReduction_add_single src 0x00000000#32 h hφ hacc (ix2 u c)).trans ?_
  refine Finset.sum_congr rfl fun k _ => congrArg src ?_
  funext ax
  match ax with
  | ⟨0, _⟩ => rfl
  | ⟨1, _⟩ => rfl
  | ⟨2, _⟩ => rfl

/-! ## The first layer's products and the gate -/

/-- A first-layer product: the [1, 256] array `m` along the channels times column `o` of the [16, 2] weights along the
    lanes, on [1, 256, 16]. -/
def layer1 (o : Nat) (m : FVec Ideal S1x256 .f32) (w : Vec Ideal S16x2 .f32) (hs : S16x2.Slices ![0, o] S16x1) :
    FVec Ideal S1x256x16 .f32 :=
  mulf (broadcastTo S1x256x16 (shapeCast S1x256x1 m shapeCasts_S1x256_S1x256x1) broadcasts_S1x256x1_S1x256x16)
    (broadcastTo S1x256x16
      (shapeCast S1x1x16 (shapeCast S16 (extractStridedSlice S16x1 ![0, o] w hs) shapeCasts_S16x1_S16) shapeCasts_S16_S1x1x16)
      broadcasts_S1x1x16_S1x256x16)

/-- At `(0, c, k)` the product is `m (0, c) · w (k, q)`, `q` the column. -/
theorem layer1_apply (o : Nat) (m : FVec Ideal S1x256 .f32) (w : Vec Ideal S16x2 .f32) (hs : S16x2.Slices ![0, o] S16x1)
    (c : Fin 256) (k : Fin 16) (q : Fin 2) (hq : q.val = o) :
    layer1 o m w hs (ix3 (0 : Fin 1) c k) = m (ix2 (0 : Fin 1) c) * w (ix2 k q) := by
  unfold layer1
  refine (mulf_apply _ _ _).trans ?_
  rw [chans_apply, colLanes_apply o w hs _ _ _ _ _ _ q hq]

/-- Over any two [1, 256, 16] arrays `p`, `q` of first-layer products, the gate payload at channel `c` is the logistic
    of the second layer applied to the rectified `p + q + b1`: the bias and the second layer's row lie along the lanes,
    the rectifier is a maximum with the zero word, and the lane sum is a sum over `Fin 16`. -/
theorem tail_apply (b1 : Vec Ideal S16 .f32) (w2 : Vec Ideal S1x16 .f32) (b2 : Vec Ideal S1 .f32)
    (p q : FVec Ideal S1x256x16 .f32) (c : Fin 256) :
    k0_pay7 (F := Ideal) b1 w2 b2 p q (ix4 (0 : Fin 1) c (0 : Fin 1) (0 : Fin 1))
      = Ideal.logistic ((∑ k : Fin 16,
          max (p (ix3 (0 : Fin 1) c k) + q (ix3 (0 : Fin 1) c k) + b1 (ix1 k)) 0 * w2 (ix2 0 k)) + b2 (ix1 0)) := by
  unfold k0_pay7
  refine (cast_1b_1b11_apply _ _ _ _ _ _).trans ?_
  refine congrArg Ideal.logistic ?_
  refine congrArg₂ (fun a b : EReal => a + b) ?_ (extract0_apply _ _)
  refine (laneSum_apply _ _ _ _ _ _).trans ?_
  refine Finset.sum_congr rfl fun k _ => ?_
  show max (p (ix3 (0 : Fin 1) c k) + q (ix3 (0 : Fin 1) c k)
        + broadcastTo S1x256x16 (shapeCast S1x1x16 b1 shapeCasts_S16_S1x1x16) broadcasts_S1x1x16_S1x256x16 (ix3 (0 : Fin 1) c k))
        (Ideal.ofBits .f32 0x00000000#32)
      * broadcastTo S1x256x16 (shapeCast S1x1x16 (shapeCast S16 w2 shapeCasts_S1x16_S16) shapeCasts_S16_S1x1x16)
          broadcasts_S1x1x16_S1x256x16 (ix3 (0 : Fin 1) c k) = _
  rw [lanes_apply, lanes_apply, cast_1a_a_apply, Ideal.ofBits_zero_f32]

/-- With both products first-layer products, the payload is the gate at `(m (0, c), s (0, c))`. -/
theorem gate_of_layer1 (m s : FVec Ideal S1x256 .f32) (w1 : Vec Ideal S16x2 .f32) (b1 : Vec Ideal S16 .f32)
    (w2 : Vec Ideal S1x16 .f32) (b2 : Vec Ideal S1 .f32) (c : Fin 256) :
    k0_pay7 (F := Ideal) b1 w2 b2 (layer1 0 m w1 slices_S16x2_o0_0_S16x1) (layer1 1 s w1 slices_S16x2_o0_1_S16x1)
        (ix4 (0 : Fin 1) c (0 : Fin 1) (0 : Fin 1))
      = Cert.Spec.gate w1 b1 w2 b2 (m (ix2 (0 : Fin 1) c)) (s (ix2 (0 : Fin 1) c)) := by
  refine (tail_apply b1 w2 b2 _ _ c).trans ?_
  unfold Cert.Spec.gate
  refine congrArg Ideal.logistic (congrArg (fun a : EReal => a + b2 (ix1 0)) (Finset.sum_congr rfl fun k _ => ?_))
  rw [layer1_apply 0 m w1 _ c k 0 rfl, layer1_apply 1 s w1 _ c k 1 rfl]

theorem pay7_apply (P0 : Vec Ideal S1x256x64x64 .f32) (w1 : Vec Ideal S16x2 .f32) (b1 : Vec Ideal S16 .f32)
    (w2 : Vec Ideal S1x16 .f32) (b2 : Vec Ideal S1 .f32) (c : Fin 256) :
    k0_pay7 (F := Ideal) b1 w2 b2 (k0_pay5 P0 w1) (k0_pay6 P0 w1) (ix4 (0 : Fin 1) c (0 : Fin 1) (0 : Fin 1))
      = Cert.Spec.gate w1 b1 w2 b2 (k0_pay3 (F := Ideal) P0 (ix2 (0 : Fin 1) c)) (k0_pay4 (F := Ideal) P0 (ix2 (0 : Fin 1) c)) := by
  exact gate_of_layer1 (k0_pay3 (F := Ideal) P0) (k0_pay4 (F := Ideal) P0) w1 b1 w2 b2 c

theorem pay8_apply (mu sd : FVec Ideal S1x256 .f32) (w1 : Vec Ideal S16x2 .f32) (b1 : Vec Ideal S16 .f32)
    (w2 : Vec Ideal S1x16 .f32) (b2 : Vec Ideal S1 .f32) (c : Fin 256) :
    k0_pay8 (F := Ideal) mu sd w1 b1 w2 b2 (ix4 (0 : Fin 1) c (0 : Fin 1) (0 : Fin 1))
      = Cert.Spec.gate w1 b1 w2 b2 (mu (ix2 (0 : Fin 1) c)) (sd (ix2 (0 : Fin 1) c)) := by
  exact gate_of_layer1 mu sd w1 b1 w2 b2 c

end Cert.KernelGate

end
-- ==== Proof.KernelArray.lean ====
/-
  The kernel's result array as one function of its argument arrays.

  The grid has 64 points; point t stages batch row t of x (a block of shape [1, 256, 64, 64]), all of each weight
  array, and writes batch row t of the result. The body's block, index by index, is: the entry minus its channel's
  mean, times the second gate, plus the mean times the first gate, where mean and deviation are those of the
  block's channel and each gate is the perceptron on that pair. That is the specification `out` of the block; and
  since a channel of row t of the array is the channel of the block, it is `out` of the whole array at row t.
  The 64 rows tile the array, so the array after the run is `out` of the arguments.
-/
import proofs.«130779_j46196668236411_1_alg».proof.Proof.Gen.KernelIdeal.Value
import proofs.«130779_j46196668236411_1_alg».proof.Proof.KernelStats
import proofs.«130779_j46196668236411_1_alg».proof.Proof.KernelGate
import proofs.«130779_j46196668236411_1_alg».proof.Proof.Spec

noncomputable section

open scoped BigOperators

namespace Cert.KernelArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- The body's block at (0, c, h, w), for any block and weights: the block's entry minus its channel mean, times the
    gate of the second perceptron, plus the mean times the gate of the first — the specification on one row. The
    five places where the block reads a per-channel value are the coordinates (0, c, 0) and (0, c, 0, 0). -/
theorem block_eq (P0 : Vec Ideal S1x256x64x64 .f32) (P1 : Vec Ideal S16x2 .f32) (P2 : Vec Ideal S16 .f32)
    (P3 : Vec Ideal S1x16 .f32) (P4 : Vec Ideal S1 .f32) (P5 : Vec Ideal S16 .f32) (P6 : Vec Ideal S1x16 .f32)
    (P7 : Vec Ideal S1 .f32) (P8 : Vec Ideal S16x2 .f32) (c : Fin 256) (h w : Fin 64) :
    E9 (F := Ideal) P0 P1 P2 P3 P4 P5 P6 P7 P8 (ix4 (0 : Fin 1) c h w)
      = Cert.Spec.out (n := 1) P0 P8 P5 P6 P7 P1 P2 P3 P4 (ix4 (0 : Fin 1) c h w) := by
  have hs := Cert.KernelStats.blockSum_apply P0 c
  have h8 := Cert.KernelGate.pay8_apply (k0_pay3 (F := Ideal) P0) (k0_pay4 (F := Ideal) P0) P1 P2 P3 P4 c
  have h7 := Cert.KernelGate.pay7_apply P0 P8 P5 P6 P7 c
  rw [Cert.KernelStats.pay3_apply, Cert.KernelStats.pay4_apply] at h8 h7
  have e0 : ix9_0 (ix4 (0 : Fin 1) c h w) = ix4 (0 : Fin 1) c h w := by
    funext a; apply Fin.ext; match a with | ⟨0, _⟩ => rfl | ⟨1, _⟩ => rfl | ⟨2, _⟩ => rfl | ⟨3, _⟩ => rfl
  have e1 : ix9_1 (ix4 (0 : Fin 1) c h w) = ix3 (0 : Fin 1) c (0 : Fin 1) := by
    funext a; apply Fin.ext; match a with | ⟨0, _⟩ => rfl | ⟨1, _⟩ => rfl | ⟨2, _⟩ => rfl
  have e2 : ix9_2 (ix4 (0 : Fin 1) c h w) = ix4 (0 : Fin 1) c (0 : Fin 1) (0 : Fin 1) := by
    funext a; apply Fin.ext; match a with | ⟨0, _⟩ => rfl | ⟨1, _⟩ => rfl | ⟨2, _⟩ => rfl | ⟨3, _⟩ => rfl
  have e3 : ix9_3 (ix4 (0 : Fin 1) c h w) = ix3 (0 : Fin 1) c (0 : Fin 1) := by
    funext a; apply Fin.ext; match a with | ⟨0, _⟩ => rfl | ⟨1, _⟩ => rfl | ⟨2, _⟩ => rfl
  have e4 : ix9_4 (ix4 (0 : Fin 1) c h w) = ix4 (0 : Fin 1) c (0 : Fin 1) (0 : Fin 1) := by
    funext a; apply Fin.ext; match a with | ⟨0, _⟩ => rfl | ⟨1, _⟩ => rfl | ⟨2, _⟩ => rfl | ⟨3, _⟩ => rfl
  show (P0 (ix9_0 (ix4 (0 : Fin 1) c h w))
        - Ideal.div ((multiReduction .add [2] S1x256x1 (shapeCast S1x256x64x1 (multiReduction .add [3] S1x256x64 P0 0x00000000#32
            reduces_S1x256x64x64_S1x256x64 (.inl rfl) rfl) shapeCasts_S1x256x64_S1x256x64x1) 0x00000000#32
            reduces_S1x256x64x1_S1x256x1 (.inl rfl) rfl : FVec Ideal S1x256x1 .f32) (ix9_1 (ix4 (0 : Fin 1) c h w))) Cert.Spec.c4096)
        * (k0_pay8 (F := Ideal) (k0_pay3 P0) (k0_pay4 P0) P1 P2 P3 P4 (ix9_2 (ix4 (0 : Fin 1) c h w)))
      + Ideal.div ((multiReduction .add [2] S1x256x1 (shapeCast S1x256x64x1 (multiReduction .add [3] S1x256x64 P0 0x00000000#32
            reduces_S1x256x64x64_S1x256x64 (.inl rfl) rfl) shapeCasts_S1x256x64_S1x256x64x1) 0x00000000#32
            reduces_S1x256x64x1_S1x256x1 (.inl rfl) rfl : FVec Ideal S1x256x1 .f32) (ix9_3 (ix4 (0 : Fin 1) c h w))) Cert.Spec.c4096
        * (k0_pay7 (F := Ideal) P5 P6 P7 (k0_pay5 P0 P8) (k0_pay6 P0 P8) (ix9_4 (ix4 (0 : Fin 1) c h w))) = _
  rw [e0, e1, e2, e3, e4, hs, h8, h7]
  rfl

/-- A batch row of an array is a block of one row: `out` of the block is `out` of the array at that row. -/
theorem out_of_row (X : (⟨4, ![64, 256, 64, 64]⟩ : Shape).Idx → EReal) (B : (⟨4, ![1, 256, 64, 64]⟩ : Shape).Idx → EReal)
    (t : Fin 64) (hB : ∀ (c : Fin 256) (h w : Fin 64), B (ix4 (0 : Fin 1) c h w) = X (ix4 t c h w))
    (wm1 : (⟨2, ![16, 2]⟩ : Shape).Idx → EReal) (bm1 : (⟨1, ![16]⟩ : Shape).Idx → EReal)
    (wm2 : (⟨2, ![1, 16]⟩ : Shape).Idx → EReal) (bm2 : (⟨1, ![1]⟩ : Shape).Idx → EReal)
    (ws1 : (⟨2, ![16, 2]⟩ : Shape).Idx → EReal) (bs1 : (⟨1, ![16]⟩ : Shape).Idx → EReal)
    (ws2 : (⟨2, ![1, 16]⟩ : Shape).Idx → EReal) (bs2 : (⟨1, ![1]⟩ : Shape).Idx → EReal)
    (c : Fin 256) (h w : Fin 64) :
    Cert.Spec.out (n := 1) B wm1 bm1 wm2 bm2 ws1 bs1 ws2 bs2 (ix4 (0 : Fin 1) c h w)
      = Cert.Spec.out (n := 64) X wm1 bm1 wm2 bm2 ws1 bs1 ws2 bs2 (ix4 t c h w) := by
  have hS : Cert.Spec.chanSum (n := 1) B 0 c = Cert.Spec.chanSum (n := 64) X t c := by
    unfold Cert.Spec.chanSum; simp only [hB]
  have hQ : Cert.Spec.chanSum (n := 1) (fun i => B i * B i) 0 c = Cert.Spec.chanSum (n := 64) (fun i => X i * X i) t c := by
    unfold Cert.Spec.chanSum; simp only [hB]
  have hM : Cert.Spec.chanMean (n := 1) B 0 c = Cert.Spec.chanMean (n := 64) X t c := by
    unfold Cert.Spec.chanMean; rw [hS]
  have hD : Cert.Spec.chanStd (n := 1) B 0 c = Cert.Spec.chanStd (n := 64) X t c := by
    unfold Cert.Spec.chanStd; rw [hQ, hM]
  show (B (ix4 (0 : Fin 1) c h w) - Cert.Spec.chanMean (n := 1) B 0 c) * Cert.Spec.gate ws1 bs1 ws2 bs2 (Cert.Spec.chanMean (n := 1) B 0 c) (Cert.Spec.chanStd (n := 1) B 0 c)
      + Cert.Spec.chanMean (n := 1) B 0 c * Cert.Spec.gate wm1 bm1 wm2 bm2 (Cert.Spec.chanMean (n := 1) B 0 c) (Cert.Spec.chanStd (n := 1) B 0 c)
    = (X (ix4 t c h w) - Cert.Spec.chanMean (n := 64) X t c) * Cert.Spec.gate ws1 bs1 ws2 bs2 (Cert.Spec.chanMean (n := 64) X t c) (Cert.Spec.chanStd (n := 64) X t c)
      + Cert.Spec.chanMean (n := 64) X t c * Cert.Spec.gate wm1 bm1 wm2 bm2 (Cert.Spec.chanMean (n := 64) X t c) (Cert.Spec.chanStd (n := 64) X t c)
  rw [hM, hD, hB]

variable (m : (ℓ : Loc nD τ sig) → Buf (Elt Ideal) ℓ) (ρ : Dev nD → PrngReg)

/-- The zero offsets of a whole-block load or store, at ranks 4, 2 and 1. -/
theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array as one function of the arrays the region finds. -/
abbrev G (c : Dev nD) : S64x256x64x64.Idx → Elt Ideal .f32 :=
  Cert.Spec.out (n := 64) (V m c main_arg0) (V m c main_arg1) (V m c main_arg2) (V m c main_arg3) (V m c main_arg4)
    (V m c main_arg5) (V m c main_arg6) (V m c main_arg7) (V m c main_arg8)

/-- The index maps over the 64 points: the x window and the result window are at block (t, 0, 0, 0), every weight
    window at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_9.index t (0 : Fin 4) = t.val ∧ win0_9.index t (1 : Fin 4) = 0 ∧ win0_9.index t (2 : Fin 4) = 0 ∧ win0_9.index t (3 : Fin 4) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)

/-- The x window's block at point `t` is row `t` of the array. -/
theorem xblk_eq (c : Dev nD) (t : Fin cfg0.N) (ch : Fin 256) (h w : Fin 64) :
    View.ld (iblk m c 0 t) r0_0 (ix4 (0 : Fin 1) ch h w) = V m c main_arg0 (ix4 (⟨t.val, t.isLt⟩ : Fin 64) ch h w) := by
  obtain ⟨e0, e1, e2, e3, -⟩ := idx_facts t
  rw [View.ld_unit_zero (S := S1x256x64x64) hz4]
  show V m c main_arg0 (((cfg0.win 0).blk t).view.emb (ix4 (0 : Fin 1) ch h w)) = _
  congr 1
  funext a; apply Fin.ext
  match a with
  | ⟨0, _⟩ => show win0_0.index t (0 : Fin 4) * 1 + 1 * 0 = t.val; omega
  | ⟨1, _⟩ => show win0_0.index t (1 : Fin 4) * 256 + 1 * ch.val = ch.val; omega
  | ⟨2, _⟩ => show win0_0.index t (2 : Fin 4) * 64 + 1 * h.val = h.val; omega
  | ⟨3, _⟩ => show win0_0.index t (3 : Fin 4) * 64 + 1 * w.val = w.val; omega

/-! Each weight window's block, at every point, is the whole weight array. -/

theorem wblk1_eq (c : Dev nD) (t : Fin cfg0.N) : View.ld (iblk m c 1 t) r0_1 = V m c main_arg1 := by
  obtain ⟨-, -, -, -, -, -, -, -, f10, f11, f2, f30, f31, f4, f50, f51, f6, f70, f71, f8⟩ := idx_facts t
  rw [View.ld_unit_zero (S := S16x2) hz2]
  funext y
  show V m c main_arg1 (((cfg0.win 1).blk t).view.emb y) = V m c main_arg1 y
  congr 1
  funext a; apply Fin.ext
  match a with
  | ⟨0, _⟩ => show win0_1.index t (0 : Fin 2) * 16 + 1 * (y 0).val = (y 0).val; omega
  | ⟨1, _⟩ => show win0_1.index t (1 : Fin 2) * 2 + 1 * (y 1).val = (y 1).val; omega

theorem wblk2_eq (c : Dev nD) (t : Fin cfg0.N) : View.ld (iblk m c 2 t) r0_2 = V m c main_arg2 := by
  obtain ⟨-, -, -, -, -, -, -, -, f10, f11, f2, f30, f31, f4, f50, f51, f6, f70, f71, f8⟩ := idx_facts t
  rw [View.ld_unit_zero (S := S16) hz1]
  funext y
  show V m c main_arg2 (((cfg0.win 2).blk t).view.emb y) = V m c main_arg2 y
  congr 1
  funext a; apply Fin.ext
  match a with
  | ⟨0, _⟩ => show win0_2.index t (0 : Fin 1) * 16 + 1 * (y 0).val = (y 0).val; omega

theorem wblk3_eq (c : Dev nD) (t : Fin cfg0.N) : View.ld (iblk m c 3 t) r0_3 = V m c main_arg3 := by
  obtain ⟨-, -, -, -, -, -, -, -, f10, f11, f2, f30, f31, f4, f50, f51, f6, f70, f71, f8⟩ := idx_facts t
  rw [View.ld_unit_zero (S := S1x16) hz2]
  funext y
  show V m c main_arg3 (((cfg0.win 3).blk t).view.emb y) = V m c main_arg3 y
  congr 1
  funext a; apply Fin.ext
  match a with
  | ⟨0, _⟩ => show win0_3.index t (0 : Fin 2) * 1 + 1 * (y 0).val = (y 0).val; omega
  | ⟨1, _⟩ => show win0_3.index t (1 : Fin 2) * 16 + 1 * (y 1).val = (y 1).val; omega

theorem wblk4_eq (c : Dev nD) (t : Fin cfg0.N) : View.ld (iblk m c 4 t) r0_4 = V m c main_arg4 := by
  obtain ⟨-, -, -, -, -, -, -, -, f10, f11, f2, f30, f31, f4, f50, f51, f6, f70, f71, f8⟩ := idx_facts t
  rw [View.ld_unit_zero (S := S1) hz1]
  funext y
  show V m c main_arg4 (((cfg0.win 4).blk t).view.emb y) = V m c main_arg4 y
  congr 1
  funext a; apply Fin.ext
  match a with
  | ⟨0, _⟩ => show win0_4.index t (0 : Fin 1) * 1 + 1 * (y 0).val = (y 0).val; omega

theorem wblk5_eq (c : Dev nD) (t : Fin cfg0.N) : View.ld (iblk m c 5 t) r0_1 = V m c main_arg5 := by
  obtain ⟨-, -, -, -, -, -, -, -, f10, f11, f2, f30, f31, f4, f50, f51, f6, f70, f71, f8⟩ := idx_facts t
  rw [View.ld_unit_zero (S := S16x2) hz2]
  funext y
  show V m c main_arg5 (((cfg0.win 5).blk t).view.emb y) = V m c main_arg5 y
  congr 1
  funext a; apply Fin.ext
  match a with
  | ⟨0, _⟩ => show win0_5.index t (0 : Fin 2) * 16 + 1 * (y 0).val = (y 0).val; omega
  | ⟨1, _⟩ => show win0_5.index t (1 : Fin 2) * 2 + 1 * (y 1).val = (y 1).val; omega

theorem wblk6_eq (c : Dev nD) (t : Fin cfg0.N) : View.ld (iblk m c 6 t) r0_2 = V m c main_arg6 := by
  obtain ⟨-, -, -, -, -, -, -, -, f10, f11, f2, f30, f31, f4, f50, f51, f6, f70, f71, f8⟩ := idx_facts t
  rw [View.ld_unit_zero (S := S16) hz1]
  funext y
  show V m c main_arg6 (((cfg0.win 6).blk t).view.emb y) = V m c main_arg6 y
  congr 1
  funext a; apply Fin.ext
  match a with
  | ⟨0, _⟩ => show win0_6.index t (0 : Fin 1) * 16 + 1 * (y 0).val = (y 0).val; omega

theorem wblk7_eq (c : Dev nD) (t : Fin cfg0.N) : View.ld (iblk m c 7 t) r0_3 = V m c main_arg7 := by
  obtain ⟨-, -, -, -, -, -, -, -, f10, f11, f2, f30, f31, f4, f50, f51, f6, f70, f71, f8⟩ := idx_facts t
  rw [View.ld_unit_zero (S := S1x16) hz2]
  funext y
  show V m c main_arg7 (((cfg0.win 7).blk t).view.emb y) = V m c main_arg7 y
  congr 1
  funext a; apply Fin.ext
  match a with
  | ⟨0, _⟩ => show win0_7.index t (0 : Fin 2) * 1 + 1 * (y 0).val = (y 0).val; omega
  | ⟨1, _⟩ => show win0_7.index t (1 : Fin 2) * 16 + 1 * (y 1).val = (y 1).val; omega

theorem wblk8_eq (c : Dev nD) (t : Fin cfg0.N) : View.ld (iblk m c 8 t) r0_4 = V m c main_arg8 := by
  obtain ⟨-, -, -, -, -, -, -, -, f10, f11, f2, f30, f31, f4, f50, f51, f6, f70, f71, f8⟩ := idx_facts t
  rw [View.ld_unit_zero (S := S1) hz1]
  funext y
  show V m c main_arg8 (((cfg0.win 8).blk t).view.emb y) = V m c main_arg8 y
  congr 1
  funext a; apply Fin.ext
  match a with
  | ⟨0, _⟩ => show win0_8.index t (0 : Fin 1) * 1 + 1 * (y 0).val = (y 0).val; omega

/-- The body's block at point `t`, at a block index, is `G` at the array index under it. -/
theorem point_eq (c : Dev nD) (t : Fin cfg0.N) (y : S1x256x64x64.Idx) :
    E9 (F := Ideal) (View.ld (iblk m c 0 t) r0_0) (V m c main_arg5) (V m c main_arg6) (V m c main_arg7) (V m c main_arg8)
        (V m c main_arg2) (V m c main_arg3) (V m c main_arg4) (V m c main_arg1) y
      = G m c (ix4 (⟨t.val, t.isLt⟩ : Fin 64) (y 1) (y 2) (y 3)) := by
  obtain ⟨a, ch, h, w, rfl⟩ : ∃ (a : Fin 1) (ch : Fin 256) (h w : Fin 64), y = ix4 a ch h w := ⟨y 0, y 1, y 2, y 3, eq_ix4 y⟩
  obtain rfl : a = 0 := Subsingleton.elim _ _
  rw [block_eq]
  exact out_of_row (V m c main_arg0) _ ⟨t.val, t.isLt⟩ (fun ch h w => xblk_eq m c t ch h w) _ _ _ _ _ _ _ _ ch h w

/-- What point `t` writes back is block `t` of `G`. -/
theorem flushed_eq (c : Dev nD) (t : Fin cfg0.N) :
    (dats m 0 c).flushed 9 t = ((cfg0.win 9).blk t).view.read (Elt Ideal) (G m c) := by
  rw [flushed9]
  unfold out0_9
  obtain ⟨-, -, -, -, e0, e1, e2, e3, -⟩ := idx_facts t
  funext j
  show View.canon [⟨r0_0, k0_pay1 (View.ld (iblk m c 0 t) r0_0) (k0_pay2 (View.ld (iblk m c 0 t) r0_0)) (k0_pay7 (View.ld (iblk m c 2 t) r0_2) (View.ld (iblk m c 3 t) r0_3) (View.ld (iblk m c 4 t) r0_4) (k0_pay5 (View.ld (iblk m c 0 t) r0_0) (View.ld (iblk m c 1 t) r0_1)) (k0_pay6 (View.ld (iblk m c 0 t) r0_0) (View.ld (iblk m c 1 t) r0_1))) (k0_pay8 (k0_pay3 (View.ld (iblk m c 0 t) r0_0)) (k0_pay4 (View.ld (iblk m c 0 t) r0_0)) (View.ld (iblk m c 5 t) r0_1) (View.ld (iblk m c 6 t) r0_2) (View.ld (iblk m c 7 t) r0_3) (View.ld (iblk m c 8 t) r0_4))⟩] j
      = G m c (((cfg0.win 9).blk t).view.emb j)
  rw [canon9_eq, wblk1_eq, wblk2_eq, wblk3_eq, wblk4_eq, wblk5_eq, wblk6_eq, wblk7_eq, wblk8_eq]
  refine (point_eq m c t j).trans ?_
  congr 1
  funext a; apply Fin.ext
  match a with
  | ⟨0, _⟩ => show t.val = win0_9.index t (0 : Fin 4) * 1 + 1 * (j 0).val; have hj : (j 0).val < 1 := (j 0).isLt; omega
  | ⟨1, _⟩ => show (j 1).val = win0_9.index t (1 : Fin 4) * 256 + 1 * (j 1).val; omega
  | ⟨2, _⟩ => show (j 2).val = win0_9.index t (2 : Fin 4) * 64 + 1 * (j 2).val; omega
  | ⟨3, _⟩ => show (j 3).val = win0_9.index t (3 : Fin 4) * 64 + 1 * (j 3).val; omega

/-- An index of the array is in point `t`'s block iff each coordinate is in the block's range on its axis. -/
theorem mem_blk (t : Fin cfg0.N) (i : S64x256x64x64.Idx) :
    i ∈ ((cfg0.win 9).blk t).view.set ↔ ∀ a : Fin 4, win0_9.index t a * S1x256x64x64.size a ≤ (i a).val ∧ (i a).val < win0_9.index t a * S1x256x64x64.size a + S1x256x64x64.size a := by
  show i ∈ ((View.whole main_v0).slice (win0_9.rect t)).set ↔ _
  rw [View.set_slice_whole, Rect.mem_set_unit]
  exact Iff.rfl

/-- Every index of the array lies in the block of the point its batch coordinate names. -/
theorem cover (i : S64x256x64x64.Idx) :
    ∃ t : Fin cfg0.N, (cfg0.win 9).flush t = true ∧ i ∈ ((cfg0.win 9).blk t).view.set := by
  have h0 : (i 0).val < 64 := (i 0).isLt
  have h1 : (i 1).val < 256 := (i 1).isLt
  have h2 : (i 2).val < 64 := (i 2).isLt
  have h3 : (i 3).val < 64 := (i 3).isLt
  have hlt : (i 0).val < cfg0.N := h0
  obtain ⟨t0, ht0⟩ : ∃ t0 : Fin cfg0.N, t0.val = (i 0).val := ⟨⟨(i 0).val, hlt⟩, rfl⟩
  refine ⟨t0, flush0_9 _, ?_⟩
  obtain ⟨-, -, -, -, e0, e1, e2, e3, -⟩ := idx_facts t0
  rw [mem_blk]
  intro a
  match a with
  | ⟨0, _⟩ => show win0_9.index t0 (0 : Fin 4) * 1 ≤ (i 0).val ∧ (i 0).val < win0_9.index t0 (0 : Fin 4) * 1 + 1; omega
  | ⟨1, _⟩ => show win0_9.index t0 (1 : Fin 4) * 256 ≤ (i 1).val ∧ (i 1).val < win0_9.index t0 (1 : Fin 4) * 256 + 256; omega
  | ⟨2, _⟩ => show win0_9.index t0 (2 : Fin 4) * 64 ≤ (i 2).val ∧ (i 2).val < win0_9.index t0 (2 : Fin 4) * 64 + 64; omega
  | ⟨3, _⟩ => show win0_9.index t0 (3 : Fin 4) * 64 ≤ (i 3).val ∧ (i 3).val < win0_9.index t0 (3 : Fin 4) * 64 + 64; omega

/-- The array after the run is `out` of the argument arrays. -/
theorem final (c : Dev nD) : (dats m 0 c).arrAt 9 cfg0.N
    = Cert.Spec.out (n := 64) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) :=
  (dats m 0 c).arrAt_eq_of_cover 9 (G m c) (fun t _ => flushed_eq m c t) cover

/-- The kernel's run: the result array at `out` of the arguments, the arguments unchanged. -/
theorem run : θ_run defs (onTc (τ := τ) (main (F := Ideal))) ⟨m, fun _ => 0, ρ⟩ fun r => ∀ c : Dev nD,
      r.2.mem ((c : Thread nD τ).loc main_v0)
          = Cert.Spec.out (n := 64) (m ((c : Thread nD τ).loc main_arg0)) (m ((c : Thread nD τ).loc main_arg1))
              (m ((c : Thread nD τ).loc main_arg2)) (m ((c : Thread nD τ).loc main_arg3)) (m ((c : Thread nD τ).loc main_arg4))
              (m ((c : Thread nD τ).loc main_arg5)) (m ((c : Thread nD τ).loc main_arg6)) (m ((c : Thread nD τ).loc main_arg7))
              (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelArray

end
-- ==== Proof.RefTerm.lean ====
/-
  The reference's host program as one composed term of its arguments, stage by stage: the channel sums and
  the mean; the variance from the centred squares (with jnp's guard on the divisor, a select that always
  takes the quotient since 4096 − 1 > 0); the deviation; the two statistics stacked on a last axis of
  extent 2; each gate as a contraction with the first layer's weights, a bias, a relu, a contraction with
  the second layer's weights, a bias and the logistic spelt as 1 / (1 + exp(−z)); and the last line,
  ((x − mean) / dev)·(dev·gate_s) + mean·gate_m, over the statistics broadcast back to the array's shape.
  Stated for every float instance; the operations are the program's own, in its order.
-/
import proofs.«130779_j46196668236411_1_alg».proof.ReferenceIdeal

noncomputable section

namespace Cert.RefTerm

open Cert.ReferenceIdeal Idealize.ShloMosaic
open Cert.ReferenceIdeal.Facts₀

variable {F : FTy → Type} [FloatOps F] [Cert.ReferenceIdeal.Facts]

/-- The channel sums: a host sum over the two trailing axes, from the constant 0. -/
def sumHW (x : FVec F S64x256x64x64 .f32) : FVec F S64x256 .f32 :=
  Host.reduceAdd x (constant S_ .f32 0x00000000#32) reducesTo_S64x256x64x64_S64x256_d2_3 h_S_

/-- The channel means: the sums over 4096. -/
def meanArr (x : FVec F S64x256x64x64 .f32) : FVec F S64x256 .f32 :=
  Host.divf (sumHW x) (broadcastInDim S64x256 ![] bcast_S_S64x256 (constant S_ .f32 0x45800000#32))

/-- The centred entries: x minus its channel's mean, the mean kept on two unit axes and broadcast back. -/
def centred (x : FVec F S64x256x64x64 .f32) : FVec F S64x256x64x64 .f32 :=
  subf x (broadcastInDim S64x256x64x64 ![0, 1, 2, 3] bcast_S64x256x1x1_S64x256x64x64_0_1_2_3
    (Host.divf (broadcastInDim S64x256x1x1 ![0, 1] bcast_S64x256_S64x256x1x1_0_1 (sumHW x))
      (broadcastInDim S64x256x1x1 ![] bcast_S_S64x256x1x1 (constant S_ .f32 0x45800000#32))))

/-- The divisor of the variance: 4096 minus the integer 1 converted. -/
def dofs : FVec F S_ .f32 :=
  subf (constant S_ .f32 0x45800000#32) (sitofp (F := F) .f32 (constantI S_ 32 1#32))

/-- The channel variances: the sum of the centred squares over the divisor, behind jnp's guard. -/
def varArr (x : FVec F S64x256x64x64 .f32) : FVec F S64x256 .f32 :=
  select (broadcastInDim S64x256 ![] bcast_S_S64x256 (cmpf (F := F) .ogt (dofs (F := F)) (constant S_ .f32 0x00000000#32)))
    (Host.divf (sumHW (mulf (centred x) (centred x))) (broadcastInDim S64x256 ![] bcast_S_S64x256 (dofs (F := F))))
    (broadcastInDim S64x256 ![] bcast_S_S64x256 (id (constant S_ .f32 0x7FC00000#32)))

/-- The channel deviations: sqrt(variance + ε). -/
def stdArr (x : FVec F S64x256x64x64 .f32) : FVec F S64x256 .f32 :=
  Host.sqrt (addf (varArr x) (broadcastInDim S64x256 ![] bcast_S_S64x256 (constant S_ .f32 0x3727C5AC#32)))

/-- Mean and deviation stacked on a last axis of extent 2. -/
def statsArr (x : FVec F S64x256x64x64 .f32) : FVec F S64x256x2 .f32 :=
  concatenate S64x256x2 2 [⟨S64x256x1, broadcastInDim S64x256x1 ![0, 1] bcast_S64x256_S64x256x1_0_1 (meanArr x)⟩,
    ⟨S64x256x1, broadcastInDim S64x256x1 ![0, 1] bcast_S64x256_S64x256x1_0_1 (stdArr x)⟩] concatenates_S64x256x1_S64x256x1_S64x256x2_d2

/-- A gate over the stacked statistics: contraction with the first layer, bias, relu, contraction with the second
    layer, bias, then 1 / (1 + exp(−z)), and the unit last axis dropped. -/
def gateArr (st : FVec F S64x256x2 .f32) (w1 : FVec F S16x2 .f32) (b1 : FVec F S16 .f32) (w2 : FVec F S1x16 .f32)
    (b2 : FVec F S1 .f32) : FVec F S64x256 .f32 :=
  shapeCast S64x256
    (Host.divf (broadcastInDim S64x256x1 ![] bcast_S_S64x256x1 (constant S_ .f32 0x3F800000#32))
      (addf (broadcastInDim S64x256x1 ![] bcast_S_S64x256x1 (constant S_ .f32 0x3F800000#32))
        (Host.exp (Host.negf
          (addf
            (Host.dotGeneral dot_S64x256x16_S1x16_S64x256x1_2_1_01_0_n_n none
              (maximumf
                (addf (Host.dotGeneral dot_S64x256x2_S16x2_S64x256x16_2_1_01_0_n_n none st w1)
                  (broadcastInDim S64x256x16 ![0, 1, 2] bcast_S1x1x16_S64x256x16_0_1_2
                    (broadcastInDim S1x1x16 ![2] bcast_S16_S1x1x16_2 b1)))
                (broadcastInDim S64x256x16 ![] bcast_S_S64x256x16 (constant S_ .f32 0x00000000#32)))
              w2)
            (broadcastInDim S64x256x1 ![0, 1, 2] bcast_S1x1x1_S64x256x1_0_1_2
              (broadcastInDim S1x1x1 ![2] bcast_S1_S1x1x1_2 b2)))))))
    shapeCasts_S64x256x1_S64x256

/-- A per-channel array on two unit axes. -/
def keep2 (v : FVec F S64x256 .f32) : FVec F S64x256x1x1 .f32 :=
  broadcastInDim S64x256x1x1 ![0, 1] bcast_S64x256_S64x256x1x1_0_1 v

/-- A per-channel array on two unit axes, broadcast to the array's shape. -/
def full (v : FVec F S64x256x1x1 .f32) : FVec F S64x256x64x64 .f32 :=
  broadcastInDim S64x256x64x64 ![0, 1, 2, 3] bcast_S64x256x1x1_S64x256x64x64_0_1_2_3 v

/-- The reference's result: ((x − mean) / dev)·(dev·gate_s) + mean·gate_m. -/
def outArr (x : FVec F S64x256x64x64 .f32) (wm1 : FVec F S16x2 .f32) (bm1 : FVec F S16 .f32) (wm2 : FVec F S1x16 .f32)
    (bm2 : FVec F S1 .f32) (ws1 : FVec F S16x2 .f32) (bs1 : FVec F S16 .f32) (ws2 : FVec F S1x16 .f32)
    (bs2 : FVec F S1 .f32) : FVec F S64x256x64x64 .f32 :=
  addf
    (mulf (Host.divf (subf x (full (keep2 (meanArr x)))) (full (keep2 (stdArr x))))
      (full (mulf (keep2 (stdArr x)) (keep2 (gateArr (statsArr x) ws1 bs1 ws2 bs2)))))
    (full (mulf (keep2 (meanArr x)) (keep2 (gateArr (statsArr x) wm1 bm1 wm2 bm2))))

end Cert.RefTerm

end
-- ==== Proof.RefRun.lean ====
/-
  The reference's run. Its @main is a straight line of 89 host operations once the three private functions are
  read at their calls (the variance function, which itself calls the guard's select, and the relu twice), each
  over that call's own buffers. Every weakly fair execution therefore terminates with each buffer at the fold of
  the operations' results over the launch contents. The fold is read in two stretches, cut before the stacking of
  the two statistics: the first leaves the channel means, the deviations, and each of the two on a unit last axis,
  as `meanArr` and `stdArr` of the array; the second is the two gates and the last line as a function (`tailArr`)
  of those four and the arguments, and `outArr` is that function at the array's statistics. No operation writes an
  argument, so the arguments end as they began.
-/
import proofs.«130779_j46196668236411_1_alg».proof.Proof.RefTerm
import proofs.«130779_j46196668236411_1_alg».proof.Proof.Gen.ReferenceIdeal
import Idealize.ShloMosaic.Lib.StableHlo.Run
import Idealize.ShloMosaic.Lib.Pipeline.Frame

noncomputable section

open scoped BigOperators

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations up to the two statistics on a unit last axis: the channel sums and means, the
    variance function's operations listed at its call over that call's buffers (the select of its guard among
    them), the deviation, and the two broadcasts the stacking reads. -/
abbrev ops0 : List (HloOp τ sig (Elt F)) :=
  [ nullary main_cst (constant S_ .f32 0x00000000#32),
    binary main_arg0 main_cst main_v0 ((fun x v => Host.reduceAdd x v reducesTo_S64x256x64x64_S64x256_d2_3 h_S_) : (⟨S64x256x64x64, .f32⟩ : BufTy).Contents (Elt F) → (⟨S_, .f32⟩ : BufTy).Contents (Elt F) → (⟨S64x256, .f32⟩ : BufTy).Contents (Elt F)),
    nullary main_cst_0 (constant S_ .f32 0x45800000#32),
    unary main_cst_0 main_v1 (broadcastInDim S64x256 ![] bcast_S_S64x256 : (⟨S_, .f32⟩ : BufTy).Contents (Elt F) → (⟨S64x256, .f32⟩ : BufTy).Contents (Elt F)),
    binary main_v0 main_v1 main_v2 (Host.divf : (⟨S64x256, .f32⟩ : BufTy).Contents (Elt F) → (⟨S64x256, .f32⟩ : BufTy).Contents (Elt F) → (⟨S64x256, .f32⟩ : BufTy).Contents (Elt F)),
    nullary main_c (constantI S_ 32 1#32),
    TRef.nullary main_call0.cst (constant S_ .f32 0x00000000#32),
    TRef.binary (.of main_arg0) main_call0.cst main_call0.v0 (fun x v => Host.reduceAdd x v reducesTo_S64x256x64x64_S64x256_d2_3 h_S_),
    TRef.unary main_call0.v0 main_call0.v1 (broadcastInDim S64x256x1x1 ![0, 1] bcast_S64x256_S64x256x1x1_0_1),
    TRef.nullary main_call0.cst_0 (constant S_ .f32 0x45800000#32),
    TRef.unary main_call0.cst_0 main_call0.v2 (broadcastInDim S64x256x1x1 ![] bcast_S_S64x256x1x1),
    TRef.binary main_call0.v1 main_call0.v2 main_call0.v3 Host.divf,
    TRef.unary main_call0.v3 main_call0.v4 (broadcastInDim S64x256x64x64 ![0, 1, 2, 3] bcast_S64x256x1x1_S64x256x64x64_0_1_2_3),
    TRef.binary (.of main_arg0) main_call0.v4 main_call0.v5 subf,
    TRef.binary main_call0.v5 main_call0.v5 main_call0.v6 mulf,
    TRef.unary (.of main_c) main_call0.v7 (sitofp (F := F) .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S64x256x64x64_S64x256_d2_3 h_S_),
    TRef.unary main_call0.v8 main_call0.v10 (broadcastInDim S64x256 ![] bcast_S_S64x256),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S64x256 ![] bcast_S_S64x256),
    TRef.ternary main_call0.v12 main_call0.v11 main_call0.call0.v1 main_call0.call0.v2 (fun p a b => select (broadcastInDim S64x256 ![] bcast_S_S64x256 p) a b),
    nullary main_cst_1 (constant S_ .f32 0x3727C5AC#32),
    unary main_cst_1 main_v4 (broadcastInDim S64x256 ![] bcast_S_S64x256 : (⟨S_, .f32⟩ : BufTy).Contents (Elt F) → (⟨S64x256, .f32⟩ : BufTy).Contents (Elt F)),
    binary main_v3 main_v4 main_v5 (addf : (⟨S64x256, .f32⟩ : BufTy).Contents (Elt F) → (⟨S64x256, .f32⟩ : BufTy).Contents (Elt F) → (⟨S64x256, .f32⟩ : BufTy).Contents (Elt F)),
    unary main_v5 main_v6 (Host.sqrt : (⟨S64x256, .f32⟩ : BufTy).Contents (Elt F) → (⟨S64x256, .f32⟩ : BufTy).Contents (Elt F)),
    unary main_v2 main_v7 (broadcastInDim S64x256x1 ![0, 1] bcast_S64x256_S64x256x1_0_1 : (⟨S64x256, .f32⟩ : BufTy).Contents (Elt F) → (⟨S64x256x1, .f32⟩ : BufTy).Contents (Elt F)),
    unary main_v6 main_v8 (broadcastInDim S64x256x1 ![0, 1] bcast_S64x256_S64x256x1_0_1 : (⟨S64x256, .f32⟩ : BufTy).Contents (Elt F) → (⟨S64x256x1, .f32⟩ : BufTy).Contents (Elt F)) ]

/-- The rest: the stacking, the two gates (each relu's operations listed at its call), and the last line. -/
abbrev ops1 : List (HloOp τ sig (Elt F)) :=
  [ binary main_v7 main_v8 main_v9 ((fun a b => concatenate S64x256x2 2 [⟨S64x256x1, a⟩, ⟨S64x256x1, b⟩] concatenates_S64x256x1_S64x256x1_S64x256x2_d2) : (⟨S64x256x1, .f32⟩ : BufTy).Contents (Elt F) → (⟨S64x256x1, .f32⟩ : BufTy).Contents (Elt F) → (⟨S64x256x2, .f32⟩ : BufTy).Contents (Elt F)),
    binary main_v9 main_arg1 main_v10 ((fun l r => Host.dotGeneral dot_S64x256x2_S16x2_S64x256x16_2_1_01_0_n_n none l r) : (⟨S64x256x2, .f32⟩ : BufTy).Contents (Elt F) → (⟨S16x2, .f32⟩ : BufTy).Contents (Elt F) → (⟨S64x256x16, .f32⟩ : BufTy).Contents (Elt F)),
    unary main_arg2 main_v11 (broadcastInDim S1x1x16 ![2] bcast_S16_S1x1x16_2 : (⟨S16, .f32⟩ : BufTy).Contents (Elt F) → (⟨S1x1x16, .f32⟩ : BufTy).Contents (Elt F)),
    unary main_v11 main_v12 (broadcastInDim S64x256x16 ![0, 1, 2] bcast_S1x1x16_S64x256x16_0_1_2 : (⟨S1x1x16, .f32⟩ : BufTy).Contents (Elt F) → (⟨S64x256x16, .f32⟩ : BufTy).Contents (Elt F)),
    binary main_v10 main_v12 main_v13 (addf : (⟨S64x256x16, .f32⟩ : BufTy).Contents (Elt F) → (⟨S64x256x16, .f32⟩ : BufTy).Contents (Elt F) → (⟨S64x256x16, .f32⟩ : BufTy).Contents (Elt F)),
    TRef.nullary main_call1.cst (constant S_ .f32 0x00000000#32),
    TRef.unary main_call1.cst main_call1.v0 (broadcastInDim S64x256x16 ![] bcast_S_S64x256x16),
    TRef.binary (.of main_v13) main_call1.v0 main_call1.v1 maximumf,
    binary main_v14 main_arg3 main_v15 ((fun l r => Host.dotGeneral dot_S64x256x16_S1x16_S64x256x1_2_1_01_0_n_n none l r) : (⟨S64x256x16, .f32⟩ : BufTy).Contents (Elt F) → (⟨S1x16, .f32⟩ : BufTy).Contents (Elt F) → (⟨S64x256x1, .f32⟩ : BufTy).Contents (Elt F)),
    unary main_arg4 main_v16 (broadcastInDim S1x1x1 ![2] bcast_S1_S1x1x1_2 : (⟨S1, .f32⟩ : BufTy).Contents (Elt F) → (⟨S1x1x1, .f32⟩ : BufTy).Contents (Elt F)),
    unary main_v16 main_v17 (broadcastInDim S64x256x1 ![0, 1, 2] bcast_S1x1x1_S64x256x1_0_1_2 : (⟨S1x1x1, .f32⟩ : BufTy).Contents (Elt F) → (⟨S64x256x1, .f32⟩ : BufTy).Contents (Elt F)),
    binary main_v15 main_v17 main_v18 (addf : (⟨S64x256x1, .f32⟩ : BufTy).Contents (Elt F) → (⟨S64x256x1, .f32⟩ : BufTy).Contents (Elt F) → (⟨S64x256x1, .f32⟩ : BufTy).Contents (Elt F)),
    unary main_v18 main_v19 (Host.negf : (⟨S64x256x1, .f32⟩ : BufTy).Contents (Elt F) → (⟨S64x256x1, .f32⟩ : BufTy).Contents (Elt F)),
    unary main_v19 main_v20 (Host.exp : (⟨S64x256x1, .f32⟩ : BufTy).Contents (Elt F) → (⟨S64x256x1, .f32⟩ : BufTy).Contents (Elt F)),
    nullary main_cst_2 (constant S_ .f32 0x3F800000#32),
    unary main_cst_2 main_v21 (broadcastInDim S64x256x1 ![] bcast_S_S64x256x1 : (⟨S_, .f32⟩ : BufTy).Contents (Elt F) → (⟨S64x256x1, .f32⟩ : BufTy).Contents (Elt F)),
    binary main_v21 main_v20 main_v22 (addf : (⟨S64x256x1, .f32⟩ : BufTy).Contents (Elt F) → (⟨S64x256x1, .f32⟩ : BufTy).Contents (Elt F) → (⟨S64x256x1, .f32⟩ : BufTy).Contents (Elt F)),
    nullary main_cst_3 (constant S_ .f32 0x3F800000#32),
    unary main_cst_3 main_v23 (broadcastInDim S64x256x1 ![] bcast_S_S64x256x1 : (⟨S_, .f32⟩ : BufTy).Contents (Elt F) → (⟨S64x256x1, .f32⟩ : BufTy).Contents (Elt F)),
    binary main_v23 main_v22 main_v24 (Host.divf : (⟨S64x256x1, .f32⟩ : BufTy).Contents (Elt F) → (⟨S64x256x1, .f32⟩ : BufTy).Contents (Elt F) → (⟨S64x256x1, .f32⟩ : BufTy).Contents (Elt F)),
    reshape main_v24 main_v25 rfl shapeCasts_S64x256x1_S64x256,
    binary main_v9 main_arg5 main_v26 ((fun l r => Host.dotGeneral dot_S64x256x2_S16x2_S64x256x16_2_1_01_0_n_n none l r) : (⟨S64x256x2, .f32⟩ : BufTy).Contents (Elt F) → (⟨S16x2, .f32⟩ : BufTy).Contents (Elt F) → (⟨S64x256x16, .f32⟩ : BufTy).Contents (Elt F)),
    unary main_arg6 main_v27 (broadcastInDim S1x1x16 ![2] bcast_S16_S1x1x16_2 : (⟨S16, .f32⟩ : BufTy).Contents (Elt F) → (⟨S1x1x16, .f32⟩ : BufTy).Contents (Elt F)),
    unary main_v27 main_v28 (broadcastInDim S64x256x16 ![0, 1, 2] bcast_S1x1x16_S64x256x16_0_1_2 : (⟨S1x1x16, .f32⟩ : BufTy).Contents (Elt F) → (⟨S64x256x16, .f32⟩ : BufTy).Contents (Elt F)),
    binary main_v26 main_v28 main_v29 (addf : (⟨S64x256x16, .f32⟩ : BufTy).Contents (Elt F) → (⟨S64x256x16, .f32⟩ : BufTy).Contents (Elt F) → (⟨S64x256x16, .f32⟩ : BufTy).Contents (Elt F)),
    TRef.nullary main_call2.cst (constant S_ .f32 0x00000000#32),
    TRef.unary main_call2.cst main_call2.v0 (broadcastInDim S64x256x16 ![] bcast_S_S64x256x16),
    TRef.binary (.of main_v29) main_call2.v0 main_call2.v1 maximumf,
    binary main_v30 main_arg7 main_v31 ((fun l r => Host.dotGeneral dot_S64x256x16_S1x16_S64x256x1_2_1_01_0_n_n none l r) : (⟨S64x256x16, .f32⟩ : BufTy).Contents (Elt F) → (⟨S1x16, .f32⟩ : BufTy).Contents (Elt F) → (⟨S64x256x1, .f32⟩ : BufTy).Contents (Elt F)),
    unary main_arg8 main_v32 (broadcastInDim S1x1x1 ![2] bcast_S1_S1x1x1_2 : (⟨S1, .f32⟩ : BufTy).Contents (Elt F) → (⟨S1x1x1, .f32⟩ : BufTy).Contents (Elt F)),
    unary main_v32 main_v33 (broadcastInDim S64x256x1 ![0, 1, 2] bcast_S1x1x1_S64x256x1_0_1_2 : (⟨S1x1x1, .f32⟩ : BufTy).Contents (Elt F) → (⟨S64x256x1, .f32⟩ : BufTy).Contents (Elt F)),
    binary main_v31 main_v33 main_v34 (addf : (⟨S64x256x1, .f32⟩ : BufTy).Contents (Elt F) → (⟨S64x256x1, .f32⟩ : BufTy).Contents (Elt F) → (⟨S64x256x1, .f32⟩ : BufTy).Contents (Elt F)),
    unary main_v34 main_v35 (Host.negf : (⟨S64x256x1, .f32⟩ : BufTy).Contents (Elt F) → (⟨S64x256x1, .f32⟩ : BufTy).Contents (Elt F)),
    unary main_v35 main_v36 (Host.exp : (⟨S64x256x1, .f32⟩ : BufTy).Contents (Elt F) → (⟨S64x256x1, .f32⟩ : BufTy).Contents (Elt F)),
    nullary main_cst_4 (constant S_ .f32 0x3F800000#32),
    unary main_cst_4 main_v37 (broadcastInDim S64x256x1 ![] bcast_S_S64x256x1 : (⟨S_, .f32⟩ : BufTy).Contents (Elt F) → (⟨S64x256x1, .f32⟩ : BufTy).Contents (Elt F)),
    binary main_v37 main_v36 main_v38 (addf : (⟨S64x256x1, .f32⟩ : BufTy).Contents (Elt F) → (⟨S64x256x1, .f32⟩ : BufTy).Contents (Elt F) → (⟨S64x256x1, .f32⟩ : BufTy).Contents (Elt F)),
    nullary main_cst_5 (constant S_ .f32 0x3F800000#32),
    unary main_cst_5 main_v39 (broadcastInDim S64x256x1 ![] bcast_S_S64x256x1 : (⟨S_, .f32⟩ : BufTy).Contents (Elt F) → (⟨S64x256x1, .f32⟩ : BufTy).Contents (Elt F)),
    binary main_v39 main_v38 main_v40 (Host.divf : (⟨S64x256x1, .f32⟩ : BufTy).Contents (Elt F) → (⟨S64x256x1, .f32⟩ : BufTy).Contents (Elt F) → (⟨S64x256x1, .f32⟩ : BufTy).Contents (Elt F)),
    reshape main_v40 main_v41 rfl shapeCasts_S64x256x1_S64x256,
    unary main_v2 main_v42 (broadcastInDim S64x256x1x1 ![0, 1] bcast_S64x256_S64x256x1x1_0_1 : (⟨S64x256, .f32⟩ : BufTy).Contents (Elt F) → (⟨S64x256x1x1, .f32⟩ : BufTy).Contents (Elt F)),
    unary main_v6 main_v43 (broadcastInDim S64x256x1x1 ![0, 1] bcast_S64x256_S64x256x1x1_0_1 : (⟨S64x256, .f32⟩ : BufTy).Contents (Elt F) → (⟨S64x256x1x1, .f32⟩ : BufTy).Contents (Elt F)),
    unary main_v42 main_v44 (broadcastInDim S64x256x64x64 ![0, 1, 2, 3] bcast_S64x256x1x1_S64x256x64x64_0_1_2_3 : (⟨S64x256x1x1, .f32⟩ : BufTy).Contents (Elt F) → (⟨S64x256x64x64, .f32⟩ : BufTy).Contents (Elt F)),
    binary main_arg0 main_v44 main_v45 (subf : (⟨S64x256x64x64, .f32⟩ : BufTy).Contents (Elt F) → (⟨S64x256x64x64, .f32⟩ : BufTy).Contents (Elt F) → (⟨S64x256x64x64, .f32⟩ : BufTy).Contents (Elt F)),
    unary main_v43 main_v46 (broadcastInDim S64x256x64x64 ![0, 1, 2, 3] bcast_S64x256x1x1_S64x256x64x64_0_1_2_3 : (⟨S64x256x1x1, .f32⟩ : BufTy).Contents (Elt F) → (⟨S64x256x64x64, .f32⟩ : BufTy).Contents (Elt F)),
    binary main_v45 main_v46 main_v47 (Host.divf : (⟨S64x256x64x64, .f32⟩ : BufTy).Contents (Elt F) → (⟨S64x256x64x64, .f32⟩ : BufTy).Contents (Elt F) → (⟨S64x256x64x64, .f32⟩ : BufTy).Contents (Elt F)),
    unary main_v41 main_v48 (broadcastInDim S64x256x1x1 ![0, 1] bcast_S64x256_S64x256x1x1_0_1 : (⟨S64x256, .f32⟩ : BufTy).Contents (Elt F) → (⟨S64x256x1x1, .f32⟩ : BufTy).Contents (Elt F)),
    binary main_v43 main_v48 main_v49 (mulf : (⟨S64x256x1x1, .f32⟩ : BufTy).Contents (Elt F) → (⟨S64x256x1x1, .f32⟩ : BufTy).Contents (Elt F) → (⟨S64x256x1x1, .f32⟩ : BufTy).Contents (Elt F)),
    unary main_v49 main_v50 (broadcastInDim S64x256x64x64 ![0, 1, 2, 3] bcast_S64x256x1x1_S64x256x64x64_0_1_2_3 : (⟨S64x256x1x1, .f32⟩ : BufTy).Contents (Elt F) → (⟨S64x256x64x64, .f32⟩ : BufTy).Contents (Elt F)),
    binary main_v47 main_v50 main_v51 (mulf : (⟨S64x256x64x64, .f32⟩ : BufTy).Contents (Elt F) → (⟨S64x256x64x64, .f32⟩ : BufTy).Contents (Elt F) → (⟨S64x256x64x64, .f32⟩ : BufTy).Contents (Elt F)),
    unary main_v25 main_v52 (broadcastInDim S64x256x1x1 ![0, 1] bcast_S64x256_S64x256x1x1_0_1 : (⟨S64x256, .f32⟩ : BufTy).Contents (Elt F) → (⟨S64x256x1x1, .f32⟩ : BufTy).Contents (Elt F)),
    binary main_v42 main_v52 main_v53 (mulf : (⟨S64x256x1x1, .f32⟩ : BufTy).Contents (Elt F) → (⟨S64x256x1x1, .f32⟩ : BufTy).Contents (Elt F) → (⟨S64x256x1x1, .f32⟩ : BufTy).Contents (Elt F)),
    unary main_v53 main_v54 (broadcastInDim S64x256x64x64 ![0, 1, 2, 3] bcast_S64x256x1x1_S64x256x64x64_0_1_2_3 : (⟨S64x256x1x1, .f32⟩ : BufTy).Contents (Elt F) → (⟨S64x256x64x64, .f32⟩ : BufTy).Contents (Elt F)),
    binary main_v51 main_v54 main_v55 (addf : (⟨S64x256x64x64, .f32⟩ : BufTy).Contents (Elt F) → (⟨S64x256x64x64, .f32⟩ : BufTy).Contents (Elt F) → (⟨S64x256x64x64, .f32⟩ : BufTy).Contents (Elt F)) ]

set_option maxRecDepth 8192 in
set_option maxHeartbeats 4000000 in
/-- @main is that straight line: the functions' definitions unfolded at their calls and the records at their
    fields, both sides are one chain of steps once sequencing is reassociated. -/
theorem main_eq (c : Dev nD) : main (F := F) c = seq (ops0 ++ ops1) := by
  rw [seq_append]
  simp only [main, main_part0, main_part1, fn_var.body, fn_where.body, fn_relu.body, seq, bind_assoc, pure_bind]

/-- The signature scopes no buffer and no semaphore of the TensorCore. -/
theorem scopedRefs_eq : (Finset.univ.filter fun b : Ref sig .tc => b.isScoped) = ∅ := by decide
theorem scopedSems_eq : (Finset.univ.filter fun sm : SemLoc sig => sm.isScoped .tc) = ∅ := by decide

/-- Every operation touches only the TensorCore's own buffers. -/
theorem ops0_sub : (ops0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub ..⟩

theorem ops1_sub : (ops1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩

/-- The same of the whole line: an operation of it is one of either stretch. -/
theorem ops_sub : (ops0 ++ ops1 : List (HloOp τ sig (Elt F))).Forall fun op => op.bufs ⊆ tcRefs τ sig :=
  List.forall_iff_forall_mem.mpr fun op h => by
    simp only [List.mem_append] at h
    rcases h with h | h
    exacts [List.forall_iff_forall_mem.mp ops0_sub op h, List.forall_iff_forall_mem.mp ops1_sub op h]

/-! ## The values: first the statistics, then the rest over them -/

section Values

variable (V : Valuation τ sig (Elt F))

/-- After the first stretch the buffer of %2 holds the channel means. -/
theorem mean_0 : after ops0 V (Proc.devRef .tc main_v2) = Cert.RefTerm.meanArr (F := F) (V (Proc.devRef .tc main_arg0)) := by
  after_results_simp <;> (try simp only [TRef.ofBuf, TRef.toBuf, cast_eq]) <;> rfl

/-- After the first stretch the buffer of %6 holds the channel deviations: the variance function's operations, read
    at its call, compose to `varArr`, and the deviation is sqrt(variance + ε). -/
theorem std_0 : after ops0 V (Proc.devRef .tc main_v6) = Cert.RefTerm.stdArr (F := F) (V (Proc.devRef .tc main_arg0)) := by
  after_results_simp <;> (try simp only [TRef.ofBuf, TRef.toBuf, cast_eq]) <;> rfl

/-- The means on a unit last axis, as the stacking reads them. -/
theorem mean1_0 : after ops0 V (Proc.devRef .tc main_v7)
    = broadcastInDim S64x256x1 ![0, 1] Facts₀.bcast_S64x256_S64x256x1_0_1 (Cert.RefTerm.meanArr (F := F) (V (Proc.devRef .tc main_arg0))) := by
  after_results_simp <;> (try simp only [TRef.ofBuf, TRef.toBuf, cast_eq]) <;> rfl

/-- The deviations on a unit last axis, as the stacking reads them. -/
theorem std1_0 : after ops0 V (Proc.devRef .tc main_v8)
    = broadcastInDim S64x256x1 ![0, 1] Facts₀.bcast_S64x256_S64x256x1_0_1 (Cert.RefTerm.stdArr (F := F) (V (Proc.devRef .tc main_arg0))) := by
  after_results_simp <;> (try simp only [TRef.ofBuf, TRef.toBuf, cast_eq]) <;> rfl

/-! No operation of the first stretch writes an argument. -/

theorem arg0_0 : after ops0 V (Proc.devRef .tc main_arg0) = V (Proc.devRef .tc main_arg0) := by after_results_simp

theorem arg1_0 : after ops0 V (Proc.devRef .tc main_arg1) = V (Proc.devRef .tc main_arg1) := by after_results_simp

theorem arg2_0 : after ops0 V (Proc.devRef .tc main_arg2) = V (Proc.devRef .tc main_arg2) := by after_results_simp

theorem arg3_0 : after ops0 V (Proc.devRef .tc main_arg3) = V (Proc.devRef .tc main_arg3) := by after_results_simp

theorem arg4_0 : after ops0 V (Proc.devRef .tc main_arg4) = V (Proc.devRef .tc main_arg4) := by after_results_simp

theorem arg5_0 : after ops0 V (Proc.devRef .tc main_arg5) = V (Proc.devRef .tc main_arg5) := by after_results_simp

theorem arg6_0 : after ops0 V (Proc.devRef .tc main_arg6) = V (Proc.devRef .tc main_arg6) := by after_results_simp

theorem arg7_0 : after ops0 V (Proc.devRef .tc main_arg7) = V (Proc.devRef .tc main_arg7) := by after_results_simp

theorem arg8_0 : after ops0 V (Proc.devRef .tc main_arg8) = V (Proc.devRef .tc main_arg8) := by after_results_simp

end Values

open Cert.RefTerm in
/-- The stretch after the two statistics as a function of them: the array, the means and the deviations, and each
    of the two on a unit last axis as the stacking reads it; the gates over the stack and the last line,
    ((x − mean) / dev)·(dev·gate_s) + mean·gate_m. -/
def tailArr (x : FVec F S64x256x64x64 .f32) (mu sd : FVec F S64x256 .f32) (mu1 sd1 : FVec F S64x256x1 .f32)
    (wm1 : FVec F S16x2 .f32) (bm1 : FVec F S16 .f32) (wm2 : FVec F S1x16 .f32) (bm2 : FVec F S1 .f32) (ws1 : FVec F S16x2 .f32) (bs1 : FVec F S16 .f32) (ws2 : FVec F S1x16 .f32) (bs2 : FVec F S1 .f32) : FVec F S64x256x64x64 .f32 :=
  addf
    (mulf (Host.divf (subf x (full (keep2 mu))) (full (keep2 sd)))
      (full (mulf (keep2 sd) (keep2 (gateArr
        (concatenate S64x256x2 2 [⟨S64x256x1, mu1⟩, ⟨S64x256x1, sd1⟩] concatenates_S64x256x1_S64x256x1_S64x256x2_d2) ws1 bs1 ws2 bs2)))))
    (full (mulf (keep2 mu) (keep2 (gateArr
      (concatenate S64x256x2 2 [⟨S64x256x1, mu1⟩, ⟨S64x256x1, sd1⟩] concatenates_S64x256x1_S64x256x1_S64x256x2_d2) wm1 bm1 wm2 bm2))))

/-- The reference's result is that stretch at the statistics of the array. -/
theorem outArr_eq (x : FVec F S64x256x64x64 .f32) (wm1 : FVec F S16x2 .f32) (bm1 : FVec F S16 .f32) (wm2 : FVec F S1x16 .f32) (bm2 : FVec F S1 .f32) (ws1 : FVec F S16x2 .f32) (bs1 : FVec F S16 .f32) (ws2 : FVec F S1x16 .f32) (bs2 : FVec F S1 .f32) :
    Cert.RefTerm.outArr x wm1 bm1 wm2 bm2 ws1 bs1 ws2 bs2
      = tailArr x (Cert.RefTerm.meanArr x) (Cert.RefTerm.stdArr x)
          (broadcastInDim S64x256x1 ![0, 1] Facts₀.bcast_S64x256_S64x256x1_0_1 (Cert.RefTerm.meanArr x))
          (broadcastInDim S64x256x1 ![0, 1] Facts₀.bcast_S64x256_S64x256x1_0_1 (Cert.RefTerm.stdArr x))
          wm1 bm1 wm2 bm2 ws1 bs1 ws2 bs2 := rfl

section Values1

variable (W : Valuation τ sig (Elt F))

set_option maxRecDepth 8192 in
set_option maxHeartbeats 2000000 in
/-- After the second stretch the result buffer holds `tailArr` of what the stretch found in the array's buffer, the
    four statistics' buffers and the weights' buffers. -/
theorem out_1 : after ops1 W (Proc.devRef .tc main_v55)
    = tailArr (F := F) (W (Proc.devRef .tc main_arg0)) (W (Proc.devRef .tc main_v2)) (W (Proc.devRef .tc main_v6)) (W (Proc.devRef .tc main_v7)) (W (Proc.devRef .tc main_v8))
        (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_results_simp <;> (try simp only [TRef.ofBuf, TRef.toBuf, cast_eq]) <;> rfl

/-! No operation of the second stretch writes an argument. -/

theorem arg0_1 : after ops1 W (Proc.devRef .tc main_arg0) = W (Proc.devRef .tc main_arg0) := by after_results_simp

theorem arg1_1 : after ops1 W (Proc.devRef .tc main_arg1) = W (Proc.devRef .tc main_arg1) := by after_results_simp

theorem arg2_1 : after ops1 W (Proc.devRef .tc main_arg2) = W (Proc.devRef .tc main_arg2) := by after_results_simp

theorem arg3_1 : after ops1 W (Proc.devRef .tc main_arg3) = W (Proc.devRef .tc main_arg3) := by after_results_simp

theorem arg4_1 : after ops1 W (Proc.devRef .tc main_arg4) = W (Proc.devRef .tc main_arg4) := by after_results_simp

theorem arg5_1 : after ops1 W (Proc.devRef .tc main_arg5) = W (Proc.devRef .tc main_arg5) := by after_results_simp

theorem arg6_1 : after ops1 W (Proc.devRef .tc main_arg6) = W (Proc.devRef .tc main_arg6) := by after_results_simp

theorem arg7_1 : after ops1 W (Proc.devRef .tc main_arg7) = W (Proc.devRef .tc main_arg7) := by after_results_simp

theorem arg8_1 : after ops1 W (Proc.devRef .tc main_arg8) = W (Proc.devRef .tc main_arg8) := by after_results_simp

end Values1

/-- Every operation determines its results: none leaves a buffer's contents open. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- The same of the whole line. -/
theorem ops_fresh : ∀ op ∈ (ops0 ++ ops1 : List (HloOp τ sig (Elt F))), op.fresh = ∅ := fun op h => by
  rcases List.mem_append.mp h with h | h
  exacts [ops0_fresh op h, ops1_fresh op h]

/-- Every weakly fair execution of the reference's @main terminates with the result buffer at `outArr` of the launch
    contents of the nine arguments, and the arguments unchanged: the straight line's fold, read stretch by stretch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = Cert.RefTerm.outArr (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_)
    (run_seq scopedRefs_eq scopedSems_eq defs main (fun _ => ops0 ++ ops1) main_eq (fun _ => ops_sub) m ρ (fun _ => ops_fresh))
  refine ⟨(h c main_v55).trans ?_, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_⟩
  · rw [after_append, out_1, mean_0, std_0, mean1_0, std1_0, arg0_0, arg1_0, arg2_0, arg3_0, arg4_0, arg5_0, arg6_0, arg7_0, arg8_0, outArr_eq]
  · rw [after_append, arg0_1, arg0_0]
  · rw [after_append, arg1_1, arg1_0]
  · rw [after_append, arg2_1, arg2_0]
  · rw [after_append, arg3_1, arg3_0]
  · rw [after_append, arg4_1, arg4_0]
  · rw [after_append, arg5_1, arg5_0]
  · rw [after_append, arg6_1, arg6_0]
  · rw [after_append, arg7_1, arg7_0]
  · rw [after_append, arg8_1, arg8_0]

end Cert.RefRun

end
-- ==== Proof.LibSumTrailingTwo.lean ====
/-
  A host sum over the two trailing axes of a rank-4 array, read at an index.

  At a result index j the host's sum is the initial value plus the sum of the operand over the source
  indices whose kept coordinates are j. For the axes [2, 3] of a shape [n0, n1, n2, n3] the kept coordinates
  are the first two, so the source indices lying over (b, c) are exactly the (b, c, h, w) with h < n2 and
  w < n3: the map (h, w) ↦ (b, c, h, w) is a bijection from Fin n2 × Fin n3 onto them, with inverse
  i ↦ (i 2, i 3). Hence the sum is the double sum Σ_h Σ_w x(b, c, h, w), for any extents.
-/
import Idealize.ShloMosaic.PureOps.Ideal.Laws
import Idealize.ShloMosaic.Lib.ValueIdx

noncomputable section

open scoped BigOperators

namespace Cert.LibSumTrailingTwo

open Idealize.ShloMosaic Idealize.ShloMosaic.ValueIdx

variable {n0 n1 n2 n3 : Nat}

/-- Dropping the two trailing axes of a rank-4 index leaves its first two coordinates. -/
theorem drop_trailing_two (h' : (⟨4, ![n0, n1, n2, n3]⟩ : Shape).ReducesTo [2, 3] ⟨2, ![n0, n1]⟩)
    (i : (⟨4, ![n0, n1, n2, n3]⟩ : Shape).Idx) : h'.drop i = ix2 (i 0) (i 1) := by
  funext d
  match d with
  | ⟨0, _⟩ => rfl
  | ⟨1, _⟩ => rfl

/-- A rank-4 index lies over (b, c) exactly when its first two coordinates are b and c. -/
theorem drop_eq_ix2_iff (h' : (⟨4, ![n0, n1, n2, n3]⟩ : Shape).ReducesTo [2, 3] ⟨2, ![n0, n1]⟩)
    (i : (⟨4, ![n0, n1, n2, n3]⟩ : Shape).Idx) (b : Fin n0) (c : Fin n1) :
    h'.drop i = ix2 b c ↔ i 0 = b ∧ i 1 = c := by
  rw [drop_trailing_two]
  constructor
  · intro e; exact ⟨congrFun e 0, congrFun e 1⟩
  · rintro ⟨rfl, rfl⟩; rfl

/-- The sum over the indices lying over (b, c) is the double sum over the two trailing coordinates. -/
theorem sum_filter_drop_trailing_two {M : Type*} [AddCommMonoid M]
    (h' : (⟨4, ![n0, n1, n2, n3]⟩ : Shape).ReducesTo [2, 3] ⟨2, ![n0, n1]⟩)
    (x : (⟨4, ![n0, n1, n2, n3]⟩ : Shape).Idx → M) (b : Fin n0) (c : Fin n1) :
    ∑ i ∈ Finset.univ.filter (fun i => h'.drop i = ix2 b c), x i
      = ∑ h : Fin n2, ∑ w : Fin n3, x (ix4 b c h w) := by
  rw [← Fintype.sum_prod_type' (f := fun h w => x (ix4 b c h w))]
  -- every index over (b, c) is (b, c, i 2, i 3)
  have back : ∀ i ∈ Finset.univ.filter (fun i => h'.drop i = ix2 b c), ix4 b c (i 2) (i 3) = i := by
    intro i hi
    obtain ⟨e0, e1⟩ := (drop_eq_ix2_iff h' i b c).1 (Finset.mem_filter.1 hi).2
    rw [← e0, ← e1]; exact (eq_ix4 i).symm
  refine Finset.sum_bij' (fun i _ => ((i 2, i 3) : Fin n2 × Fin n3)) (fun p _ => ix4 b c p.1 p.2) ?_ ?_ ?_ ?_ ?_
  · intro i _; exact Finset.mem_univ _
  · intro p _
    exact Finset.mem_filter.2 ⟨Finset.mem_univ _, (drop_eq_ix2_iff h' _ b c).2 ⟨rfl, rfl⟩⟩
  · intro i hi; exact back i hi
  · intro p _; rfl
  · intro i hi; exact congrArg x (back i hi).symm

/-- The host's sum over the axes [2, 3] of a rank-4 array, at the ideal values and at the index (b, c): the initial
    value plus Σ_h Σ_w x(b, c, h, w). -/
theorem hostReduceAdd_trailing_two
    (h' : (⟨4, ![n0, n1, n2, n3]⟩ : Shape).ReducesTo [2, 3] ⟨2, ![n0, n1]⟩)
    (x : (⟨4, ![n0, n1, n2, n3]⟩ : Shape).Idx → EReal) (init : EReal) (b : Fin n0) (c : Fin n1) :
    Ideal.hostReduceAdd h' x init (ix2 b c) = init + ∑ h : Fin n2, ∑ w : Fin n3, x (ix4 b c h w) := by
  unfold Ideal.hostReduceAdd
  rw [sum_filter_drop_trailing_two]

end Cert.LibSumTrailingTwo

end
-- ==== Proof.RefStats.lean ====
/-
  The reference's channel statistics read at an index.

  The reference sums each channel over its two trailing axes with the host's sum from the constant 0; at the
  exact values that sum at (b, c) is Σ_h Σ_w x(b, c, h, w), the specification's channel sum. The mean is that sum
  over the constant 4096, read through a broadcast of a rank-0 constant. For the deviation the reference centres
  every entry by its channel's mean (the mean carried on two unit axes and broadcast back), sums the squares, and
  divides by 4096 − 1 behind a guard "divisor > 0" that always holds, then adds ε and takes the root: at (b, c) this
  is the specification's deviation from the centred squares.
-/
import proofs.«130779_j46196668236411_1_alg».proof.Proof.RefTerm
import proofs.«130779_j46196668236411_1_alg».proof.Proof.Gen.ReferenceIdeal
import proofs.«130779_j46196668236411_1_alg».proof.Proof.Spec
import proofs.«130779_j46196668236411_1_alg».proof.Proof.LibSumTrailingTwo
import Idealize.ShloMosaic.Lib.Pipeline.Value

noncomputable section

open scoped BigOperators

namespace Cert.RefStats

open Cert.ReferenceIdeal Cert.ReferenceIdeal.Gen Idealize.ShloMosaic Idealize.ShloMosaic.ValueIdx

/-- The host's sum over the two trailing axes from the constant 0, at (b, c): the double sum over the channel. -/
theorem sumHW_apply (x : FVec Ideal S64x256x64x64 .f32) (b : Fin 64) (c : Fin 256) :
    Cert.RefTerm.sumHW (F := Ideal) x (ix2 b c) = Cert.Spec.chanSum (n := 64) x b c := by
  unfold Cert.RefTerm.sumHW Host.reduceAdd Cert.Spec.chanSum
  rw [Ideal.hostReduceAdd_def, Cert.LibSumTrailingTwo.hostReduceAdd_trailing_two, constant_apply,
    Ideal.ofBits_zero_f32, zero_add]

/-- The mean at (b, c): the channel sum over 4096. -/
theorem meanArr_apply (x : FVec Ideal S64x256x64x64 .f32) (b : Fin 64) (c : Fin 256) :
    Cert.RefTerm.meanArr (F := Ideal) x (ix2 b c) = Cert.Spec.chanMean (n := 64) x b c := by
  unfold Cert.RefTerm.meanArr Cert.Spec.chanMean
  rw [← sumHW_apply]
  rfl

/-- The divisor of the variance is 4096 − 1, the integer 1 converted exactly. -/
theorem dofs_apply (i : S_.Idx) :
    Cert.RefTerm.dofs (F := Ideal) i = Cert.Spec.c4096 - ((((1 : ℤ) : ℝ)) : EReal) := by
  unfold Cert.RefTerm.dofs
  rw [subf_apply, constant_apply, sitofp_apply]
  rfl

/-- 4096 − 1 is positive, so the guard's comparison gives the bit 1. -/
theorem guard_one :
    Ideal.cmp .ogt (Cert.Spec.c4096 - ((((1 : ℤ) : ℝ)) : EReal)) Cert.Spec.cZero = 1#1 := by
  have hpos : Cert.Spec.cZero < Cert.Spec.c4096 - ((((1 : ℤ) : ℝ)) : EReal) := by
    rw [Cert.Spec.cZero_eq, Cert.Spec.c4096_eq, ← EReal.coe_sub, ← EReal.coe_zero, EReal.coe_lt_coe_iff]
    norm_num
  unfold Ideal.cmp
  simp only [hpos, decide_true]
  rfl

/-- A centred entry at (b, c, h, w): the entry minus its channel's mean. -/
theorem centred_apply (x : FVec Ideal S64x256x64x64 .f32) (b : Fin 64) (c : Fin 256) (h w : Fin 64) :
    Cert.RefTerm.centred (F := Ideal) x (ix4 b c h w) = x (ix4 b c h w) - Cert.Spec.chanMean (n := 64) x b c := by
  unfold Cert.RefTerm.centred
  rw [subf_apply]
  congr 1
  rw [broadcastInDim_apply _ _ _ _ (ix4 b c (0 : Fin 1) (0 : Fin 1)) (by intro a; fin_cases a <;> rfl)]
  show Ideal.div _ _ = _
  rw [broadcastInDim_apply _ _ _ _ (ix2 b c) (by intro a; fin_cases a <;> rfl), sumHW_apply]
  rfl

/-- The sum of the centred squares at (b, c) is the channel sum of the specification's centred squares. -/
theorem sumSq_apply (x : FVec Ideal S64x256x64x64 .f32) (b : Fin 64) (c : Fin 256) :
    Cert.RefTerm.sumHW (F := Ideal) (mulf (Cert.RefTerm.centred x) (Cert.RefTerm.centred x)) (ix2 b c)
      = Cert.Spec.chanSum (n := 64)
          (fun i => (x i - Cert.Spec.chanMean x (i 0) (i 1)) * (x i - Cert.Spec.chanMean x (i 0) (i 1))) b c := by
  rw [sumHW_apply]
  unfold Cert.Spec.chanSum
  refine Finset.sum_congr rfl fun h _ => Finset.sum_congr rfl fun w _ => ?_
  rw [mulf_apply, centred_apply]

/-- The variance at (b, c): the guard takes the quotient of the centred squares' sum by 4096 − 1. -/
theorem varArr_apply (x : FVec Ideal S64x256x64x64 .f32) (b : Fin 64) (c : Fin 256) :
    Cert.RefTerm.varArr (F := Ideal) x (ix2 b c)
      = Ideal.div (Cert.Spec.chanSum (n := 64)
          (fun i => (x i - Cert.Spec.chanMean x (i 0) (i 1)) * (x i - Cert.Spec.chanMean x (i 0) (i 1))) b c)
          (Cert.Spec.c4096 - ((((1 : ℤ) : ℝ)) : EReal)) := by
  unfold Cert.RefTerm.varArr
  rw [select_apply]
  have hc : broadcastInDim S64x256 ![] bcast_S_S64x256
      (cmpf (F := Ideal) .ogt (Cert.RefTerm.dofs (F := Ideal)) (constant S_ .f32 0x00000000#32)) (ix2 b c) = 1#1 := by
    rw [broadcastInDim_apply _ _ _ _ ix0 (fun a => a.elim0), cmpf_apply, dofs_apply, constant_apply]
    exact guard_one
  rw [hc, select_one]
  show Ideal.div _ _ = _
  rw [sumSq_apply, broadcastInDim_apply _ _ _ _ ix0 (fun a => a.elim0), dofs_apply]

/-- The deviation at (b, c): sqrt(variance + ε). -/
theorem stdArr_apply (x : FVec Ideal S64x256x64x64 .f32) (b : Fin 64) (c : Fin 256) :
    Cert.RefTerm.stdArr (F := Ideal) x (ix2 b c) = Cert.Spec.chanStdC (n := 64) x b c := by
  unfold Cert.RefTerm.stdArr Cert.Spec.chanStdC
  show Ideal.sqrt (_ + _) = _
  rw [varArr_apply]
  rfl

end Cert.RefStats

end
-- ==== Proof.RefGate.lean ====
/-
  The reference's gates read at a channel.

  The two statistics are stacked on a last axis of extent 2, so the stack at (b, c, 0) is the mean and at (b, c, 1)
  the deviation. A gate contracts that axis with the first layer's weights, Σ_j st(b,c,j)·w1(k,j) = st0·w1(k,0) +
  st1·w1(k,1), adds b1(k), takes the maximum with 0, contracts the 16 hidden entries with w2's row, adds b2's entry
  and forms 1 / (1 + exp(−z)), which is the logistic of z. At (b, c) this is the specification's gate at the
  stack's two entries.
-/
import proofs.«130779_j46196668236411_1_alg».proof.Proof.RefTerm
import proofs.«130779_j46196668236411_1_alg».proof.Proof.Gen.ReferenceIdeal
import proofs.«130779_j46196668236411_1_alg».proof.Proof.Spec
import Idealize.ShloMosaic.Lib.Pipeline.Value

noncomputable section

open scoped BigOperators

namespace Cert.RefGate

open Cert.ReferenceIdeal Cert.ReferenceIdeal.Gen Idealize.ShloMosaic Idealize.ShloMosaic.ValueIdx

theorem statsArr_apply0 (x : FVec Ideal S64x256x64x64 .f32) (b : Fin 64) (c : Fin 256) :
    Cert.RefTerm.statsArr (F := Ideal) x (ix3 b c (0 : Fin 2)) = Cert.RefTerm.meanArr (F := Ideal) x (ix2 b c) := by
  unfold Cert.RefTerm.statsArr
  refine (concatenate_pair_apply_left (t := S64x256x2) (s₁ := S64x256x1) (s₂ := S64x256x1) (2 : Fin 3) _ _ _ (ix3 b c (0 : Fin 2)) rfl (ix3 b c (0 : Fin 1)) ?_).trans ?_
  · intro a
    match a with
    | ⟨0, _⟩ => rfl
    | ⟨1, _⟩ => rfl
    | ⟨2, _⟩ => rfl
  · refine broadcastInDim_apply _ _ _ _ (ix2 b c) ?_
    intro a
    match a with
    | ⟨0, _⟩ => rfl
    | ⟨1, _⟩ => rfl

theorem statsArr_apply1 (x : FVec Ideal S64x256x64x64 .f32) (b : Fin 64) (c : Fin 256) :
    Cert.RefTerm.statsArr (F := Ideal) x (ix3 b c (1 : Fin 2)) = Cert.RefTerm.stdArr (F := Ideal) x (ix2 b c) := by
  unfold Cert.RefTerm.statsArr
  refine (concatenate_pair_apply_right (t := S64x256x2) (s₁ := S64x256x1) (s₂ := S64x256x1) (2 : Fin 3) _ _ _ (ix3 b c (1 : Fin 2)) rfl rfl (ix3 b c (0 : Fin 1)) ?_ ?_).trans ?_
  · intro a ha
    match a with
    | ⟨0, _⟩ => rfl
    | ⟨1, _⟩ => rfl
    | ⟨2, _⟩ => exact absurd rfl ha
  · rfl
  · refine broadcastInDim_apply _ _ _ _ (ix2 b c) ?_
    intro a
    match a with
    | ⟨0, _⟩ => rfl
    | ⟨1, _⟩ => rfl

/-- The first contraction's left index: at result position (b, c, k) and contracted coordinate q it is (b, c, q). -/
theorem dot1_lhsIdx (b : Fin 64) (c : Fin 256) (k : Fin 16) (q : Fin 2) :
    dot_S64x256x2_S16x2_S64x256x16_2_1_01_0_n_n.lhsIdx (ix3 b c k)
      ((contrEquiv1 dot_S64x256x2_S16x2_S64x256x16_2_1_01_0_n_n 2 rfl rfl).symm q) = ix3 b c q := by
  have cq := contrEquiv1_symm_val dot_S64x256x2_S16x2_S64x256x16_2_1_01_0_n_n 2 rfl rfl q
  funext ax; apply Fin.ext
  match ax with
  | ⟨0, _⟩ => simp [DotDims.lhsIdx, dot_S64x256x2_S16x2_S64x256x16_2_1_01_0_n_n]; rfl
  | ⟨1, _⟩ => simp [DotDims.lhsIdx, dot_S64x256x2_S16x2_S64x256x16_2_1_01_0_n_n]; rfl
  | ⟨2, _⟩ => simp [DotDims.lhsIdx, dot_S64x256x2_S16x2_S64x256x16_2_1_01_0_n_n]; exact cq

/-- The first contraction's right index: at result position (b, c, k) and contracted coordinate q it is (k, q). -/
theorem dot1_rhsIdx (b : Fin 64) (c : Fin 256) (k : Fin 16) (q : Fin 2) :
    dot_S64x256x2_S16x2_S64x256x16_2_1_01_0_n_n.rhsIdx (ix3 b c k)
      ((contrEquiv1 dot_S64x256x2_S16x2_S64x256x16_2_1_01_0_n_n 2 rfl rfl).symm q) = ix2 k q := by
  have cq := contrEquiv1_symm_val dot_S64x256x2_S16x2_S64x256x16_2_1_01_0_n_n 2 rfl rfl q
  funext ax; apply Fin.ext
  match ax with
  | ⟨0, _⟩ => simp [DotDims.rhsIdx, dot_S64x256x2_S16x2_S64x256x16_2_1_01_0_n_n]; rfl
  | ⟨1, _⟩ => simp [DotDims.rhsIdx, dot_S64x256x2_S16x2_S64x256x16_2_1_01_0_n_n]; exact cq

/-- The first layer's contraction over the extent-2 axis, read at (b, c, k): the two-term sum
    st[b,c,0]·w1[k,0] + st[b,c,1]·w1[k,1]. -/
theorem dot1_apply (st : FVec Ideal S64x256x2 .f32) (w1 : FVec Ideal S16x2 .f32) (b : Fin 64) (c : Fin 256) (k : Fin 16) :
    Host.dotGeneral (F := Ideal) dot_S64x256x2_S16x2_S64x256x16_2_1_01_0_n_n none st w1 (ix3 b c k)
      = st (ix3 b c (0 : Fin 2)) * w1 (ix2 k (0 : Fin 2)) + st (ix3 b c (1 : Fin 2)) * w1 (ix2 k (1 : Fin 2)) := by
  show FloatOps.dotGeneral _ none _ st w1 (ix3 b c k) = _
  rw [Ideal.dotGeneral_apply,
    ← Equiv.sum_comp (contrEquiv1 dot_S64x256x2_S16x2_S64x256x16_2_1_01_0_n_n 2 rfl rfl).symm,
    Fin.sum_univ_two, dot1_lhsIdx, dot1_lhsIdx, dot1_rhsIdx, dot1_rhsIdx]

/-- The second contraction's left index: at result position (b, c, 0) and contracted coordinate q it is (b, c, q). -/
theorem dot2_lhsIdx (b : Fin 64) (c : Fin 256) (q : Fin 16) :
    dot_S64x256x16_S1x16_S64x256x1_2_1_01_0_n_n.lhsIdx (ix3 b c (0 : Fin 1))
      ((contrEquiv1 dot_S64x256x16_S1x16_S64x256x1_2_1_01_0_n_n 16 rfl rfl).symm q) = ix3 b c q := by
  have cq := contrEquiv1_symm_val dot_S64x256x16_S1x16_S64x256x1_2_1_01_0_n_n 16 rfl rfl q
  funext ax; apply Fin.ext
  match ax with
  | ⟨0, _⟩ => simp [DotDims.lhsIdx, dot_S64x256x16_S1x16_S64x256x1_2_1_01_0_n_n]; rfl
  | ⟨1, _⟩ => simp [DotDims.lhsIdx, dot_S64x256x16_S1x16_S64x256x1_2_1_01_0_n_n]; rfl
  | ⟨2, _⟩ => simp [DotDims.lhsIdx, dot_S64x256x16_S1x16_S64x256x1_2_1_01_0_n_n]; exact cq

/-- The second contraction's right index: at result position (b, c, 0) and contracted coordinate q it is (0, q),
    the second layer's one row. -/
theorem dot2_rhsIdx (b : Fin 64) (c : Fin 256) (q : Fin 16) :
    dot_S64x256x16_S1x16_S64x256x1_2_1_01_0_n_n.rhsIdx (ix3 b c (0 : Fin 1))
      ((contrEquiv1 dot_S64x256x16_S1x16_S64x256x1_2_1_01_0_n_n 16 rfl rfl).symm q) = ix2 (0 : Fin 1) q := by
  have cq := contrEquiv1_symm_val dot_S64x256x16_S1x16_S64x256x1_2_1_01_0_n_n 16 rfl rfl q
  funext ax; apply Fin.ext
  match ax with
  | ⟨0, _⟩ => simp [DotDims.rhsIdx, dot_S64x256x16_S1x16_S64x256x1_2_1_01_0_n_n]
  | ⟨1, _⟩ => simp [DotDims.rhsIdx, dot_S64x256x16_S1x16_S64x256x1_2_1_01_0_n_n]; exact cq

/-- The second layer's contraction over the extent-16 axis, read at (b, c, 0): Σ_k h[b,c,k]·w2[0,k]. -/
theorem dot2_apply (h : FVec Ideal S64x256x16 .f32) (w2 : FVec Ideal S1x16 .f32) (b : Fin 64) (c : Fin 256) :
    Host.dotGeneral (F := Ideal) dot_S64x256x16_S1x16_S64x256x1_2_1_01_0_n_n none h w2 (ix3 b c (0 : Fin 1))
      = ∑ k : Fin 16, h (ix3 b c k) * w2 (ix2 (0 : Fin 1) k) := by
  show FloatOps.dotGeneral _ none _ h w2 (ix3 b c (0 : Fin 1)) = _
  rw [Ideal.dotGeneral_apply,
    ← Equiv.sum_comp (contrEquiv1 dot_S64x256x16_S1x16_S64x256x1_2_1_01_0_n_n 16 rfl rfl).symm]
  refine Finset.sum_congr rfl fun k _ => ?_
  rw [dot2_lhsIdx, dot2_rhsIdx]

/-- The first layer's bias, placed on a last axis behind two unit axes and broadcast over (b, c): at (b, c, k) it
    is b1[k]. -/
theorem bias1_apply (b1 : FVec Ideal S16 .f32) (b : Fin 64) (c : Fin 256) (k : Fin 16) :
    broadcastInDim S64x256x16 ![0, 1, 2] Facts₀.bcast_S1x1x16_S64x256x16_0_1_2
      (broadcastInDim S1x1x16 ![2] Facts₀.bcast_S16_S1x1x16_2 b1) (ix3 b c k) = b1 (ix1 k) := by
  refine (broadcastInDim_apply _ _ _ (ix3 b c k) (ix3 (0 : Fin 1) (0 : Fin 1) k) ?_).trans ?_
  · intro a
    match a with
    | ⟨0, _⟩ => rfl
    | ⟨1, _⟩ => rfl
    | ⟨2, _⟩ => rfl
  · refine broadcastInDim_apply _ _ _ _ (ix1 k) ?_
    intro a
    match a with
    | ⟨0, _⟩ => rfl

/-- The second layer's bias, broadcast the same way: at (b, c, 0) it is b2[0]. -/
theorem bias2_apply (b2 : FVec Ideal S1 .f32) (b : Fin 64) (c : Fin 256) :
    broadcastInDim S64x256x1 ![0, 1, 2] Facts₀.bcast_S1x1x1_S64x256x1_0_1_2
      (broadcastInDim S1x1x1 ![2] Facts₀.bcast_S1_S1x1x1_2 b2) (ix3 b c (0 : Fin 1)) = b2 (ix1 (0 : Fin 1)) := by
  refine (broadcastInDim_apply _ _ _ (ix3 b c (0 : Fin 1)) (ix3 (0 : Fin 1) (0 : Fin 1) (0 : Fin 1)) ?_).trans ?_
  · intro a
    match a with
    | ⟨0, _⟩ => rfl
    | ⟨1, _⟩ => rfl
    | ⟨2, _⟩ => rfl
  · refine broadcastInDim_apply _ _ _ _ (ix1 (0 : Fin 1)) ?_
    intro a
    match a with
    | ⟨0, _⟩ => rfl

/-- A scalar constant broadcast to [64, 256, 16] reads its value everywhere. -/
theorem const16_apply (w : BitVec 32) (b : Fin 64) (c : Fin 256) (k : Fin 16) :
    broadcastInDim S64x256x16 ![] Facts₀.bcast_S_S64x256x16 (constant (F := Ideal) S_ .f32 w) (ix3 b c k)
      = Ideal.ofBits .f32 w :=
  broadcastInDim_apply _ _ _ (ix3 b c k) ix0 fun a => a.elim0

/-- A scalar constant broadcast to [64, 256, 1] reads its value everywhere. -/
theorem const1_apply (w : BitVec 32) (b : Fin 64) (c : Fin 256) :
    broadcastInDim S64x256x1 ![] Facts₀.bcast_S_S64x256x1 (constant (F := Ideal) S_ .f32 w) (ix3 b c (0 : Fin 1))
      = Ideal.ofBits .f32 w :=
  broadcastInDim_apply _ _ _ (ix3 b c (0 : Fin 1)) ix0 fun a => a.elim0

/-- Dropping the unit last axis: the [64, 256] array at (b, c) is the [64, 256, 1] array at (b, c, 0), the two
    having the same row-major position b·256 + c. -/
theorem squeeze_apply (v : FVec Ideal S64x256x1 .f32) (b : Fin 64) (c : Fin 256) :
    shapeCast S64x256 v Facts₀.shapeCasts_S64x256x1_S64x256 (ix2 b c) = v (ix3 b c (0 : Fin 1)) := by
  refine shapeCast_apply v _ (ix2 b c) (ix3 b c (0 : Fin 1)) ?_
  rw [Shape.rowMajor_val_three, Shape.rowMajor_val_two]
  show (b.val * 256 + c.val) * 1 + 0 = b.val * 256 + c.val
  omega

/-- The hidden layer at (b, c, k): max(st[b,c,0]·w1[k,0] + st[b,c,1]·w1[k,1] + b1[k], 0), the relu being a maximum
    against the broadcast constant 0. -/
theorem hidden_apply (st : FVec Ideal S64x256x2 .f32) (w1 : FVec Ideal S16x2 .f32) (b1 : FVec Ideal S16 .f32)
    (b : Fin 64) (c : Fin 256) (k : Fin 16) :
    maximumf
        (addf (Host.dotGeneral (F := Ideal) dot_S64x256x2_S16x2_S64x256x16_2_1_01_0_n_n none st w1)
          (broadcastInDim S64x256x16 ![0, 1, 2] Facts₀.bcast_S1x1x16_S64x256x16_0_1_2
            (broadcastInDim S1x1x16 ![2] Facts₀.bcast_S16_S1x1x16_2 b1)))
        (broadcastInDim S64x256x16 ![] Facts₀.bcast_S_S64x256x16 (constant (F := Ideal) S_ .f32 0x00000000#32)) (ix3 b c k)
      = max (st (ix3 b c (0 : Fin 2)) * w1 (ix2 k (0 : Fin 2)) + st (ix3 b c (1 : Fin 2)) * w1 (ix2 k (1 : Fin 2))
          + b1 (ix1 k)) 0 := by
  have h0 : Ideal.ofBits .f32 0x00000000#32 = (0 : EReal) := Cert.Spec.cZero_eq
  rw [maximumf_apply, addf_apply, dot1_apply, bias1_apply, const16_apply, h0]

/-- The second layer's contraction of the hidden layer at (b, c, 0): Σ_k max(…, 0)·w2[0,k], term by term. -/
theorem layer2_apply (st : FVec Ideal S64x256x2 .f32) (w1 : FVec Ideal S16x2 .f32) (b1 : FVec Ideal S16 .f32)
    (w2 : FVec Ideal S1x16 .f32) (b : Fin 64) (c : Fin 256) :
    Host.dotGeneral (F := Ideal) dot_S64x256x16_S1x16_S64x256x1_2_1_01_0_n_n none
        (maximumf
          (addf (Host.dotGeneral (F := Ideal) dot_S64x256x2_S16x2_S64x256x16_2_1_01_0_n_n none st w1)
            (broadcastInDim S64x256x16 ![0, 1, 2] Facts₀.bcast_S1x1x16_S64x256x16_0_1_2
              (broadcastInDim S1x1x16 ![2] Facts₀.bcast_S16_S1x1x16_2 b1)))
          (broadcastInDim S64x256x16 ![] Facts₀.bcast_S_S64x256x16 (constant (F := Ideal) S_ .f32 0x00000000#32)))
        w2 (ix3 b c (0 : Fin 1))
      = ∑ k : Fin 16, max (st (ix3 b c (0 : Fin 2)) * w1 (ix2 k (0 : Fin 2))
          + st (ix3 b c (1 : Fin 2)) * w1 (ix2 k (1 : Fin 2)) + b1 (ix1 k)) 0 * w2 (ix2 (0 : Fin 1) k) := by
  rw [dot2_apply]
  refine Finset.sum_congr rfl fun k _ => ?_
  rw [hidden_apply]

theorem gateArr_apply (st : FVec Ideal S64x256x2 .f32) (w1 : FVec Ideal S16x2 .f32) (b1 : FVec Ideal S16 .f32)
    (w2 : FVec Ideal S1x16 .f32) (b2 : FVec Ideal S1 .f32) (b : Fin 64) (c : Fin 256) :
    Cert.RefTerm.gateArr (F := Ideal) st w1 b1 w2 b2 (ix2 b c)
      = Cert.Spec.gate w1 b1 w2 b2 (st (ix3 b c (0 : Fin 2))) (st (ix3 b c (1 : Fin 2))) := by
  have h1 : Ideal.ofBits .f32 0x3F800000#32 = (1 : EReal) := Cert.Spec.cOne_eq
  unfold Cert.RefTerm.gateArr Cert.Spec.gate
  -- outside in: the unit axis dropped, then 1 / (1 + exp(−z)) pointwise at (b, c, 0)
  rw [squeeze_apply]
  simp only [Host.divf, Host.exp, Host.negf, addf_apply, Ideal.hostDivf_def, Ideal.hostUnary_exp_def,
    Ideal.hostNegf_def, Ideal.negf_def]
  -- z is the second layer's sum plus its bias; the two constants are 1
  rw [const1_apply, layer2_apply, bias2_apply, h1]
  -- what is left is the logistic function's own definition
  rfl

end Cert.RefGate

end
-- ==== Proof.RefValue.lean ====
/-
  The reference's result, index by index, is the specification's centred arrangement.

  At (b, c, h, w) the last line of the reference reads the channel's mean, deviation and gates through two
  broadcasts each (a per-channel array on two unit axes, then to the array's shape), so it is
  ((x − mean) / dev)·(dev·gate_s) + mean·gate_m at the channel's own statistics; the gates are read at the
  stacked statistics, whose two entries are the mean and the deviation.
-/
import proofs.«130779_j46196668236411_1_alg».proof.Proof.RefTerm
import proofs.«130779_j46196668236411_1_alg».proof.Proof.RefStats
import proofs.«130779_j46196668236411_1_alg».proof.Proof.RefGate
import proofs.«130779_j46196668236411_1_alg».proof.Proof.Spec
import Idealize.ShloMosaic.Lib.Pipeline.Value

noncomputable section

open scoped BigOperators

namespace Cert.RefValue

open Cert.ReferenceIdeal Cert.ReferenceIdeal.Gen Idealize.ShloMosaic Idealize.ShloMosaic.ValueIdx

/-- A per-channel array kept on two unit axes and broadcast to the array's shape reads, at (b, c, h, w), the
    per-channel entry (b, c). -/
theorem full_keep2_apply (v : FVec Ideal S64x256 .f32) (b : Fin 64) (c : Fin 256) (h w : Fin 64) :
    Cert.RefTerm.full (F := Ideal) (Cert.RefTerm.keep2 v) (ix4 b c h w) = v (ix2 b c) := by
  unfold Cert.RefTerm.full Cert.RefTerm.keep2
  rw [broadcastInDim_apply _ _ _ _ (ix4 b c (0 : Fin 1) (0 : Fin 1)) (by intro a; fin_cases a <;> rfl),
    broadcastInDim_apply _ _ _ _ (ix2 b c) (by intro a; fin_cases a <;> rfl)]

/-- The product of two such kept arrays, broadcast, reads the product of the two per-channel entries. -/
theorem full_mul_apply (u v : FVec Ideal S64x256 .f32) (b : Fin 64) (c : Fin 256) (h w : Fin 64) :
    Cert.RefTerm.full (F := Ideal) (mulf (Cert.RefTerm.keep2 u) (Cert.RefTerm.keep2 v)) (ix4 b c h w)
      = u (ix2 b c) * v (ix2 b c) := by
  unfold Cert.RefTerm.full Cert.RefTerm.keep2
  rw [broadcastInDim_apply _ _ _ _ (ix4 b c (0 : Fin 1) (0 : Fin 1)) (by intro a; fin_cases a <;> rfl), mulf_apply,
    broadcastInDim_apply _ _ _ _ (ix2 b c) (by intro a; fin_cases a <;> rfl),
    broadcastInDim_apply _ _ _ _ (ix2 b c) (by intro a; fin_cases a <;> rfl)]

/-- A gate of the reference at (b, c) is the specification's gate at the channel's mean and centred deviation. -/
theorem gate_apply (x : FVec Ideal S64x256x64x64 .f32) (w1 : FVec Ideal S16x2 .f32) (b1 : FVec Ideal S16 .f32)
    (w2 : FVec Ideal S1x16 .f32) (b2 : FVec Ideal S1 .f32) (b : Fin 64) (c : Fin 256) :
    Cert.RefTerm.gateArr (F := Ideal) (Cert.RefTerm.statsArr x) w1 b1 w2 b2 (ix2 b c)
      = Cert.Spec.gate w1 b1 w2 b2 (Cert.Spec.chanMean (n := 64) x b c) (Cert.Spec.chanStdC (n := 64) x b c) := by
  rw [Cert.RefGate.gateArr_apply, Cert.RefGate.statsArr_apply0, Cert.RefGate.statsArr_apply1,
    Cert.RefStats.meanArr_apply, Cert.RefStats.stdArr_apply]

/-- The reference's result is the centred arrangement of the specification. -/
theorem outArr_eq (x : FVec Ideal S64x256x64x64 .f32) (wm1 : FVec Ideal S16x2 .f32) (bm1 : FVec Ideal S16 .f32)
    (wm2 : FVec Ideal S1x16 .f32) (bm2 : FVec Ideal S1 .f32) (ws1 : FVec Ideal S16x2 .f32) (bs1 : FVec Ideal S16 .f32)
    (ws2 : FVec Ideal S1x16 .f32) (bs2 : FVec Ideal S1 .f32) :
    Cert.RefTerm.outArr (F := Ideal) x wm1 bm1 wm2 bm2 ws1 bs1 ws2 bs2
      = Cert.Spec.outC (n := 64) x wm1 bm1 wm2 bm2 ws1 bs1 ws2 bs2 := by
  funext i
  obtain ⟨b, c, h, w, rfl⟩ : ∃ (b : Fin 64) (c : Fin 256) (h w : Fin 64), i = ix4 b c h w := ⟨i 0, i 1, i 2, i 3, eq_ix4 i⟩
  unfold Cert.RefTerm.outArr
  rw [addf_apply, mulf_apply]
  show Ideal.div (x (ix4 b c h w) - Cert.RefTerm.full (Cert.RefTerm.keep2 (Cert.RefTerm.meanArr x)) (ix4 b c h w))
        (Cert.RefTerm.full (Cert.RefTerm.keep2 (Cert.RefTerm.stdArr x)) (ix4 b c h w))
      * Cert.RefTerm.full (mulf (Cert.RefTerm.keep2 (Cert.RefTerm.stdArr x)) (Cert.RefTerm.keep2 (Cert.RefTerm.gateArr (Cert.RefTerm.statsArr x) ws1 bs1 ws2 bs2))) (ix4 b c h w)
      + Cert.RefTerm.full (mulf (Cert.RefTerm.keep2 (Cert.RefTerm.meanArr x)) (Cert.RefTerm.keep2 (Cert.RefTerm.gateArr (Cert.RefTerm.statsArr x) wm1 bm1 wm2 bm2))) (ix4 b c h w) = _
  rw [full_keep2_apply, full_keep2_apply, full_mul_apply, full_mul_apply, gate_apply, gate_apply,
    Cert.RefStats.meanArr_apply, Cert.RefStats.stdArr_apply]
  rfl

end Cert.RefValue

end
-- ==== Proof.Laws.lean ====
import proofs.«130779_j46196668236411_1_alg».proof.Proof.Spec

/-!
  The two arrangements of the specification agree on real-valued inputs.

  Over the reals, with S the sum of a channel's 4096 entries and m = S / 4096, the centred squares satisfy
  Σ (x − m)² = Σ x² − 2·m·S + 4096·m² = Σ x² − 4096·m², so the two variances are one real number, which is
  non-negative as a sum of squares over 4095. Adding the positive ε keeps the square root's argument positive, so
  the deviation s is a positive real, and then (a / s)·(s·g) = a·g for every extended real a and g.
-/

noncomputable section

open scoped BigOperators

namespace Cert.Spec

open Idealize.ShloMosaic Idealize.ShloMosaic.ValueIdx

variable {n : Nat}

/-- The embedding of the reals into the extended reals commutes with finite sums. -/
private theorem coe_sum {ι : Type} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- Over the reals: if the 4096 entries sum to 4096·m, the centred squares sum to Σ f² − 4096·m². -/
private theorem sum_centred_sq (f : Fin 64 → Fin 64 → ℝ) (m : ℝ) (hm : ∑ h, ∑ w, f h w = 4096 * m) :
    ∑ h, ∑ w, (f h w - m) * (f h w - m) = (∑ h, ∑ w, f h w * f h w) - 4096 * m * m := by
  have h1 : ∀ h w, (f h w - m) * (f h w - m) = f h w * f h w - (2 * m) * f h w + m * m := by
    intro h w; ring
  simp only [h1, Finset.sum_add_distrib, Finset.sum_sub_distrib, ← Finset.mul_sum, hm, Finset.sum_const,
    Finset.card_univ, Fintype.card_fin, nsmul_eq_mul]
  push_cast
  ring

/-- The channel sum of a real-valued array is the real double sum. -/
private theorem chanSum_coe (y : (⟨4, ![n, 256, 64, 64]⟩ : Shape).Idx → ℝ) (b : Fin n) (c : Fin 256) :
    chanSum (fun i => (y i : EReal)) b c = ((∑ h : Fin 64, ∑ w : Fin 64, y (ix4 b c h w) : ℝ) : EReal) := by
  unfold chanSum
  simp only [coe_sum]

/-- The channel mean of a real-valued array is the real sum over 4096. -/
private theorem chanMean_coe (y : (⟨4, ![n, 256, 64, 64]⟩ : Shape).Idx → ℝ) (b : Fin n) (c : Fin 256) :
    chanMean (fun i => (y i : EReal)) b c
      = (((∑ h : Fin 64, ∑ w : Fin 64, y (ix4 b c h w)) / 4096 : ℝ) : EReal) := by
  unfold chanMean
  rw [chanSum_coe, c4096_eq, Ideal.div_coe (by norm_num), ← EReal.coe_mul]
  congr 1
  ring

/-- For a real-valued array both variances of a channel are the same non-negative real number:
    (Σ y² − 4096·m²) / 4095 with m = (Σ y) / 4096, which is Σ (y − m)² / 4095. -/
private theorem var_coe (y : (⟨4, ![n, 256, 64, 64]⟩ : Shape).Idx → ℝ) (b : Fin n) (c : Fin 256) :
    ∃ v : ℝ, 0 ≤ v ∧
      Ideal.div (chanSum (fun i => (y i : EReal) * (y i : EReal)) b c
          - c4096 * chanMean (fun i => (y i : EReal)) b c * chanMean (fun i => (y i : EReal)) b c) c4095 = (v : EReal) ∧
      Ideal.div (chanSum (fun i => ((y i : EReal) - chanMean (fun j => (y j : EReal)) (i 0) (i 1))
          * ((y i : EReal) - chanMean (fun j => (y j : EReal)) (i 0) (i 1))) b c)
        (c4096 - ((((1 : ℤ) : ℝ)) : EReal)) = (v : EReal) := by
  -- S is the channel's sum, Q its sum of squares, both real
  set S : ℝ := ∑ h : Fin 64, ∑ w : Fin 64, y (ix4 b c h w) with hS
  set Q : ℝ := ∑ h : Fin 64, ∑ w : Fin 64, y (ix4 b c h w) * y (ix4 b c h w) with hQ
  -- the centred squares sum to Q − 4096·(S/4096)²
  have hcs : ∑ h : Fin 64, ∑ w : Fin 64, (y (ix4 b c h w) - S / 4096) * (y (ix4 b c h w) - S / 4096)
      = Q - 4096 * (S / 4096) * (S / 4096) :=
    sum_centred_sq (fun h w => y (ix4 b c h w)) (S / 4096) (by rw [← hS]; ring)
  refine ⟨(Q - 4096 * (S / 4096) * (S / 4096)) / 4095, ?_, ?_, ?_⟩
  · -- a sum of squares over a positive number
    rw [← hcs]
    exact div_nonneg (Finset.sum_nonneg fun h _ => Finset.sum_nonneg fun w _ => mul_self_nonneg _) (by norm_num)
  · -- the raw second moment
    have hsq : (fun i => (y i : EReal) * (y i : EReal)) = fun i => ((y i * y i : ℝ) : EReal) := by
      funext i; rw [EReal.coe_mul]
    rw [hsq, chanSum_coe, chanMean_coe, c4096_eq, c4095_eq, ← EReal.coe_mul, ← EReal.coe_mul, ← EReal.coe_sub,
      Ideal.div_coe (by norm_num), ← EReal.coe_mul]
    congr 1
    ring
  · -- the centred squares: entry by entry a real, then the real identity
    have hpt : ∀ h w : Fin 64,
        ((y (ix4 b c h w) : EReal) - chanMean (fun j => (y j : EReal)) b c)
            * ((y (ix4 b c h w) : EReal) - chanMean (fun j => (y j : EReal)) b c)
          = (((y (ix4 b c h w) - S / 4096) * (y (ix4 b c h w) - S / 4096) : ℝ) : EReal) := by
      intro h w
      rw [chanMean_coe, ← EReal.coe_sub, ← EReal.coe_mul]
    have hB : chanSum (fun i => ((y i : EReal) - chanMean (fun j => (y j : EReal)) (i 0) (i 1))
          * ((y i : EReal) - chanMean (fun j => (y j : EReal)) (i 0) (i 1))) b c
        = ((Q - 4096 * (S / 4096) * (S / 4096) : ℝ) : EReal) := by
      show ∑ h : Fin 64, ∑ w : Fin 64,
          ((y (ix4 b c h w) : EReal) - chanMean (fun j => (y j : EReal)) b c)
            * ((y (ix4 b c h w) : EReal) - chanMean (fun j => (y j : EReal)) b c) = _
      simp only [hpt, coe_sum]
      rw [hcs]
    rw [hB, c4096_eq, Int.cast_one, ← EReal.coe_sub, Ideal.div_coe (by norm_num), ← EReal.coe_mul]
    congr 1
    ring

theorem chanStdC_eq_chanStd (x : (⟨4, ![n, 256, 64, 64]⟩ : Shape).Idx → EReal) (hx : ∀ i, ∃ r : ℝ, x i = (r : EReal))
    (b : Fin n) (c : Fin 256) : chanStdC x b c = chanStd x b c := by
  choose y hy using hx
  obtain rfl : x = fun i => (y i : EReal) := funext hy
  obtain ⟨v, _, hraw, hcen⟩ := var_coe y b c
  unfold chanStdC chanStd
  rw [hraw, hcen]

theorem chanStd_pos (x : (⟨4, ![n, 256, 64, 64]⟩ : Shape).Idx → EReal) (hx : ∀ i, ∃ r : ℝ, x i = (r : EReal))
    (b : Fin n) (c : Fin 256) : ∃ s : ℝ, 0 < s ∧ chanStd x b c = (s : EReal) := by
  choose y hy using hx
  obtain rfl : x = fun i => (y i : EReal) := funext hy
  obtain ⟨v, hv, hraw, _⟩ := var_coe y b c
  obtain ⟨e, he, hee⟩ := cEps_pos
  have hpos : 0 < v + e := by linarith
  refine ⟨Real.sqrt (v + e), Real.sqrt_pos.2 hpos, ?_⟩
  unfold chanStd
  rw [hraw, hee, ← EReal.coe_add, Ideal.sqrt_coe, if_neg (not_lt.2 hpos.le)]

/-- Dividing by a nonzero real s and multiplying by s again gives the numerator back, whatever the other factor. -/
private theorem div_mul_cancel_coe (a g : EReal) {s : ℝ} (hs : s ≠ 0) :
    Ideal.div a (s : EReal) * ((s : EReal) * g) = a * g := by
  rw [Ideal.div_coe hs, mul_assoc, ← mul_assoc ((1 / s : ℝ) : EReal), ← EReal.coe_mul, one_div,
    inv_mul_cancel₀ hs, EReal.coe_one, one_mul]

theorem outC_eq_out (x : (⟨4, ![n, 256, 64, 64]⟩ : Shape).Idx → EReal) (hx : ∀ i, ∃ r : ℝ, x i = (r : EReal))
    (wm1 : (⟨2, ![16, 2]⟩ : Shape).Idx → EReal) (bm1 : (⟨1, ![16]⟩ : Shape).Idx → EReal)
    (wm2 : (⟨2, ![1, 16]⟩ : Shape).Idx → EReal) (bm2 : (⟨1, ![1]⟩ : Shape).Idx → EReal)
    (ws1 : (⟨2, ![16, 2]⟩ : Shape).Idx → EReal) (bs1 : (⟨1, ![16]⟩ : Shape).Idx → EReal)
    (ws2 : (⟨2, ![1, 16]⟩ : Shape).Idx → EReal) (bs2 : (⟨1, ![1]⟩ : Shape).Idx → EReal) :
    outC x wm1 bm1 wm2 bm2 ws1 bs1 ws2 bs2 = out x wm1 bm1 wm2 bm2 ws1 bs1 ws2 bs2 := by
  funext i
  obtain ⟨s, hs, hse⟩ := chanStd_pos x hx (i 0) (i 1)
  have hC : chanStdC x (i 0) (i 1) = (s : EReal) := (chanStdC_eq_chanStd x hx (i 0) (i 1)).trans hse
  unfold outC out
  rw [hC, hse, div_mul_cancel_coe _ _ hs.ne']

end Cert.Spec

end
-- ==== Proof.Finite.lean ====
/-
  What the precondition gives: every entry of the first argument is a real number.

  The precondition is a conjunction, one conjunct per argument, each an "all entries have absolute value below +∞"
  reduced by `and` to one bit. The first argument's conjunct is the innermost on the left; where it is 1, every
  entry x satisfies max(x, −x) < +∞, so x is neither +∞ nor −∞.
-/
import proofs.«130779_j46196668236411_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

open scoped BigOperators

namespace Cert.Finite

open Cert.Pre_finite_inputs Idealize.ShloMosaic

variable [Cert.Pre_finite_inputs.Facts]

instance : Subsingleton S_.Idx := ⟨fun a b => funext fun d => d.elim0⟩

/-- Where the precondition's bit is 1, its innermost left conjunct is 1: every entry of x has max(x, −x) below +∞,
    and an extended real with that property is a real number. -/
theorem x_real (x : FVec Ideal S64x256x64x64 .f32) (a1 : FVec Ideal S16x2 .f32) (a2 : FVec Ideal S16 .f32)
    (a3 : FVec Ideal S1x16 .f32) (a4 : FVec Ideal S1 .f32) (a5 : FVec Ideal S16x2 .f32) (a6 : FVec Ideal S16 .f32)
    (a7 : FVec Ideal S1x16 .f32) (a8 : FVec Ideal S1 .f32)
    (h : fn (F := Ideal) x a1 a2 a3 a4 a5 a6 a7 a8 = fun _ => 1#1) (i : S64x256x64x64.Idx) :
    ∃ r : ℝ, x i = (r : EReal) := by
  have h0 := congrFun h ValueIdx.ix0
  dsimp only [fn, fn_part1, fn_part2] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  have h8 := (IntOp.andi_eq_one.1 h7).1
  have hi := Host.reduce_andi_all _ _ _ _ _ h8 i
  have hi' : Ideal.cmp .olt (max (x i) (-(x i))) (Ideal.ofBits .f32 0x7F800000#32) = 1#1 := hi
  have htop : Ideal.ofBits .f32 0x7F800000#32 = ⊤ := by simp [Ideal.ofBits, Ideal.ieee]
  rw [htop] at hi'
  have hlt : max (x i) (-(x i)) < ⊤ := by
    by_contra hc
    simp [Ideal.cmp, hc] at hi'
  induction hx : x i using EReal.rec with
  | bot => rw [hx] at hlt; simp at hlt
  | coe r => exact ⟨r, rfl⟩
  | top => rw [hx] at hlt; simp at hlt

end Cert.Finite

end
-- ==== Proof.lean ====
/-
  A channel-wise self-normalisation: for x of shape [64, 256, 64, 64] each channel (b, c) has its mean and its
  deviation sqrt(var + ε) over the 4096 entries; two small perceptrons (2 → 16 → 1, relu then logistic) turn
  the pair (mean, deviation) into two gates; the result is (x − mean)·gate_s + mean·gate_m.

  The kernel takes one batch row per grid point, sums x and x² over the channel, forms the variance as
  (Σx² − 4096·mean²)/4095, and never divides by the deviation. The reference takes the variance from the centred
  squares, Σ(x − mean)²/(4096 − 1), and writes the last line as ((x − mean)/dev)·(dev·gate_s) + mean·gate_m.
  Over the extended reals the two agree as soon as every entry of x is a real number, which the precondition
  says: then Σ(x − mean)² = Σx² − 4096·mean², the deviation is a positive real, and (a/s)·(s·g) = a·g for every
  extended real g (`Laws.lean`). The literals 4096, 4095, 1 and ε are the same words on both sides.

  `KernelArray.lean` reads the kernel's result array as the specification `Spec.out` of the argument arrays
  (its blocks are the batch rows; `KernelStats.lean` and `KernelGate.lean` read the body's statistics and gates
  at an index); `RefRun.lean` runs the reference's host program to the composed term of `RefTerm.lean`, which
  `RefStats.lean`, `RefGate.lean` and `RefValue.lean` read index by index as `Spec.outC`; `Finite.lean` takes
  "every entry of x is real" out of the precondition. The kernel's idealization rewrote nothing, so `preserves`
  has nothing to state.
-/
import proofs.«130779_j46196668236411_1_alg».proof.Defs
import proofs.«130779_j46196668236411_1_alg».proof.Proof.Gen.Kernel
import proofs.«130779_j46196668236411_1_alg».proof.Proof.Gen.Kernel.Frame
import proofs.«130779_j46196668236411_1_alg».proof.Proof.Gen.KernelIdeal
import proofs.«130779_j46196668236411_1_alg».proof.Proof.Gen.KernelIdeal.Frame
import proofs.«130779_j46196668236411_1_alg».proof.Proof.Gen.ReferenceIdeal
import proofs.«130779_j46196668236411_1_alg».proof.Proof.Gen.Pre_finite_inputs
import proofs.«130779_j46196668236411_1_alg».proof.Proof.KernelArray
import proofs.«130779_j46196668236411_1_alg».proof.Proof.RefRun
import proofs.«130779_j46196668236411_1_alg».proof.Proof.RefValue
import proofs.«130779_j46196668236411_1_alg».proof.Proof.Laws
import proofs.«130779_j46196668236411_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- Both results are `Spec.out` of the arguments: the kernel's by its run, the reference's by its run, its reading
    index by index, and the law that joins the two arrangements on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.RefRun.run (F := Ideal) m' ρ')
  obtain ⟨e0, e1, e2, e3, e4, e5, e6, e7, e8⟩ := hagree c
  rw [e0, e1, e2, e3, e4, e5, e6, e7, e8, Cert.RefValue.outArr_eq,
    Cert.Spec.outC_eq_out _ (fun i => Cert.Finite.x_real _ _ _ _ _ _ _ _ _ (hpre c) i)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
